-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x256x128x256 : Shape := ⟨4, ![1, 256, 128, 256]⟩
abbrev S256x128x2 : Shape := ⟨3, ![256, 128, 2]⟩
abbrev S256x128x6 : Shape := ⟨3, ![256, 128, 6]⟩
abbrev S256x64x3 : Shape := ⟨3, ![256, 64, 3]⟩
abbrev S_ : Shape := ⟨0, ![]⟩

class Facts : Prop where
  bcast_S_S1x256x128x256 : S_.BroadcastsInDim S1x256x128x256 (![] : Fin 0 → Fin S1x256x128x256.rank)
  reducesTo_S1x256x128x256_S_d0_1_2_3 : S1x256x128x256.ReducesTo [0, 1, 2, 3] S_
  h_S_ : 0 < S_.numel
  bcast_S_S256x64x3 : S_.BroadcastsInDim S256x64x3 (![] : Fin 0 → Fin S256x64x3.rank)
  reducesTo_S256x64x3_S_d0_1_2 : S256x64x3.ReducesTo [0, 1, 2] S_
  bcast_S_S256x128x6 : S_.BroadcastsInDim S256x128x6 (![] : Fin 0 → Fin S256x128x6.rank)
  reducesTo_S256x128x6_S_d0_1_2 : S256x128x6.ReducesTo [0, 1, 2] S_

variable [Facts]

def fn {F : FTy → Type} [FloatOps F] (main_arg0 : FVec F S1x256x128x256 .f32) (main_arg1 : IVec S256x128x2 32) (main_arg2 : IVec S256x128x6 32) (main_arg3 : FVec F S256x64x3 .f32) : IVec S_ 1 :=
  let main_v0 : FVec F S1x256x128x256 .f32 := Host.absf main_arg0
  let main_cst : FVec F S_ .f32 := constant S_ .f32 0x7F800000#32
  let main_v1 : FVec F S1x256x128x256 .f32 := broadcastInDim S1x256x128x256 ![] bcast_S_S1x256x128x256 main_cst
  let main_v2 : IVec S1x256x128x256 1 := cmpf .olt main_v0 main_v1
  let main_c : IVec S_ 1 := constantI S_ 1 1#1
  let main_v3 : IVec S_ 1 := (fun x v => Host.reduce IntOp.andi x v reducesTo_S1x256x128x256_S_d0_1_2_3 h_S_) main_v2 main_c
  let main_v4 : FVec F S256x64x3 .f32 := Host.absf main_arg3
  let main_cst_0 : FVec F S_ .f32 := constant S_ .f32 0x7F800000#32
  let main_v5 : FVec F S256x64x3 .f32 := broadcastInDim S256x64x3 ![] bcast_S_S256x64x3 main_cst_0
  let main_v6 : IVec S256x64x3 1 := cmpf .olt main_v4 main_v5
  let main_c_1 : IVec S_ 1 := constantI S_ 1 1#1
  let main_v7 : IVec S_ 1 := (fun x v => Host.reduce IntOp.andi x v reducesTo_S256x64x3_S_d0_1_2 h_S_) main_v6 main_c_1
  let main_v8 : IVec S_ 1 := andi main_v3 main_v7
  let main_c_2 : IVec S_ 32 := constantI S_ 32 0#32
  let main_v9 : IVec S256x128x6 32 := broadcastInDim S256x128x6 ![] bcast_S_S256x128x6 main_c_2
  let main_v10 : IVec S256x128x6 1 := cmpi .sge main_arg2 main_v9
  let main_c_3 : IVec S_ 32 := constantI S_ 32 128#32
  let main_v11 : IVec S256x128x6 32 := broadcastInDim S256x128x6 ![] bcast_S_S256x128x6 main_c_3
  let main_v12 : IVec S256x128x6 1 := cmpi .slt main_arg2 main_v11
  let main_v13 : IVec S256x128x6 1 := andi main_v10 main_v12
  let main_c_4 : IVec S_ 1 := constantI S_ 1 1#1
  let main_v14 : IVec S_ 1 := (fun x v => Host.reduce IntOp.andi x v reducesTo_S256x128x6_S_d0_1_2 h_S_) main_v13 main_c_4
  let main_v15 : IVec S_ 1 := andi main_v8 main_v14
  main_v15
-- ==== Kernel.lean ====
abbrev S1x256x128x256 : Shape := ⟨4, ![1, 256, 128, 256]⟩
abbrev S256x128x2 : Shape := ⟨3, ![256, 128, 2]⟩
abbrev S256x128x6 : Shape := ⟨3, ![256, 128, 6]⟩
abbrev S256x64x3 : Shape := ⟨3, ![256, 64, 3]⟩
abbrev S256x128x256 : Shape := ⟨3, ![256, 128, 256]⟩
abbrev S_ : Shape := ⟨0, ![]⟩
abbrev S256x128x2x1 : Shape := ⟨4, ![256, 128, 2, 1]⟩
abbrev S256x128x2x3 : Shape := ⟨4, ![256, 128, 2, 3]⟩
abbrev S256x128x1x3 : Shape := ⟨4, ![256, 128, 1, 3]⟩
abbrev S256x128x3 : Shape := ⟨3, ![256, 128, 3]⟩
abbrev S256x128 : Shape := ⟨2, ![256, 128]⟩
abbrev S6x256x128 : Shape := ⟨3, ![6, 256, 128]⟩
abbrev S32x128x256 : Shape := ⟨3, ![32, 128, 256]⟩
abbrev S6x32x128 : Shape := ⟨3, ![6, 32, 128]⟩
abbrev S32x128 : Shape := ⟨2, ![32, 128]⟩
abbrev S1x1x128 : Shape := ⟨3, ![1, 1, 128]⟩
abbrev S32x1x128 : Shape := ⟨3, ![32, 1, 128]⟩
abbrev S1x32x128 : Shape := ⟨3, ![1, 32, 128]⟩
abbrev S32x128x1 : Shape := ⟨3, ![32, 128, 1]⟩
abbrev S32x128x128 : Shape := ⟨3, ![32, 128, 128]⟩

abbrev nBuf : Space → Nat
  | .hbm => 35
  | .vmem => 8
  | .smem => 0
  | _ => 0

abbrev bufTy : (tb : Table) → Fin (tcTables nBuf tb) → BufTy
  | .hbm, ⟨0, _⟩ => ⟨S1x256x128x256, .f32⟩
  | .hbm, ⟨1, _⟩ => ⟨S256x128x2, .i32⟩
  | .hbm, ⟨2, _⟩ => ⟨S256x128x6, .i32⟩
  | .hbm, ⟨3, _⟩ => ⟨S256x64x3, .f32⟩
  | .hbm, ⟨4, _⟩ => ⟨S256x128x256, .f32⟩
  | .hbm, ⟨5, _⟩ => ⟨S_, .i32⟩
  | .hbm, ⟨6, _⟩ => ⟨S256x128x2, .i32⟩
  | .hbm, ⟨7, _⟩ => ⟨S256x128x2, .i1⟩
  | .hbm, ⟨8, _⟩ => ⟨S_, .i32⟩
  | .hbm, ⟨9, _⟩ => ⟨S256x128x2, .i32⟩
  | .hbm, ⟨10, _⟩ => ⟨S256x128x2, .i32⟩
  | .hbm, ⟨11, _⟩ => ⟨S256x128x2, .i32⟩
  | .hbm, ⟨12, _⟩ => ⟨S256x128x2x1, .i32⟩
  | .hbm, ⟨13, _⟩ => ⟨S256x128x2x3, .f32⟩
  | .hbm, ⟨14, _⟩ => ⟨S256x128x1x3, .f32⟩
  | .hbm, ⟨15, _⟩ => ⟨S256x128x3, .f32⟩
  | .hbm, ⟨16, _⟩ => ⟨S256x128x1x3, .f32⟩
  | .hbm, ⟨17, _⟩ => ⟨S256x128x3, .f32⟩
  | .hbm, ⟨18, _⟩ => ⟨S256x128x3, .f32⟩
  | .hbm, ⟨19, _⟩ => ⟨S256x128x3, .f32⟩
  | .hbm, ⟨20, _⟩ => ⟨S_, .f32⟩
  | .hbm, ⟨21, _⟩ => ⟨S256x128, .f32⟩
  | .hbm, ⟨22, _⟩ => ⟨S_, .f32⟩
  | .hbm, ⟨23, _⟩ => ⟨S256x128, .f32⟩
  | .hbm, ⟨24, _⟩ => ⟨S256x128, .f32⟩
  | .hbm, ⟨25, _⟩ => ⟨S256x128, .f32⟩
  | .hbm, ⟨26, _⟩ => ⟨S_, .f32⟩
  | .hbm, ⟨27, _⟩ => ⟨S256x128, .f32⟩
  | .hbm, ⟨28, _⟩ => ⟨S256x128, .i1⟩
  | .hbm, ⟨29, _⟩ => ⟨S_, .f32⟩
  | .hbm, ⟨30, _⟩ => ⟨S256x128, .f32⟩
  | .hbm, ⟨31, _⟩ => ⟨S256x128, .f32⟩
  | .hbm, ⟨32, _⟩ => ⟨S6x256x128, .i32⟩
  | .hbm, ⟨33, _⟩ => ⟨S256x128x256, .f32⟩
  | .hbm, ⟨34, _⟩ => ⟨S1x256x128x256, .f32⟩
  | .local _ .vmem, ⟨0, _⟩ => ⟨S32x128x256, .f32⟩
  | .local _ .vmem, ⟨1, _⟩ => ⟨S32x128x256, .f32⟩
  | .local _ .vmem, ⟨2, _⟩ => ⟨S6x32x128, .i32⟩
  | .local _ .vmem, ⟨3, _⟩ => ⟨S6x32x128, .i32⟩
  | .local _ .vmem, ⟨4, _⟩ => ⟨S32x128, .f32⟩
  | .local _ .vmem, ⟨5, _⟩ => ⟨S32x128, .f32⟩
  | .local _ .vmem, ⟨6, _⟩ => ⟨S32x128x256, .f32⟩
  | .local _ .vmem, ⟨7, _⟩ => ⟨S32x128x256, .f32⟩
  | _, _ => ⟨S1x256x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_cst : Ref sig .tc := ⟨.hbm, 26, rfl⟩
abbrev main_call0_v1 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6x32x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1x256x128x256_S256x128x256 : S1x256x128x256.ShapeCasts S256x128x256
  bcast_S_S256x128x2 : S_.BroadcastsInDim S256x128x2 (![] : Fin 0 → Fin S256x128x2.rank)
  bcast_S256x128x2_S256x128x2x1_0_1_2 : S256x128x2.BroadcastsInDim S256x128x2x1 (![0, 1, 2] : Fin 3 → Fin S256x128x2x1.rank)
  slices_S256x128x2x3_S256x128x1x3_0_0_0_0 : S256x128x2x3.Slices ![0, 0, 0, 0] S256x128x1x3
  shapeCasts_S256x128x1x3_S256x128x3 : S256x128x1x3.ShapeCasts S256x128x3
  slices_S256x128x2x3_S256x128x1x3_0_0_1_0 : S256x128x2x3.Slices ![0, 0, 1, 0] S256x128x1x3
  reducesTo_S256x128x3_S256x128_d2 : S256x128x3.ReducesTo [2] S256x128
  h_S_ : 0 < S_.numel
  bcast_S_S256x128 : S_.BroadcastsInDim S256x128 (![] : Fin 0 → Fin S256x128.rank)
  transposes_S256x128x6_S6x256x128_2_0_1 : S256x128x6.Transposes [2, 0, 1] S6x256x128
  iota_S1x1x128_d2_w32 : S1x1x128.Iotas .tc 32 [2]
  inb_S32x128_S32x128_0_0 : ∀ a, (![0, 0] : Fin 2 → Nat) a + S32x128.size a ≤ S32x128.size a
  h_S32x128 : 0 < S32x128.numel
  shapeCasts_S32x128_S32x128 : S32x128.ShapeCasts S32x128
  bitsLt_bf16_f32 : FTy.bits .bf16 < FTy.bits .f32
  shapeCasts_S32x128_S32x1x128 : S32x128.ShapeCasts S32x1x128
  inb_S6x32x128_S1x32x128_0_0_0 : ∀ a, (![0, 0, 0] : Fin 3 → Nat) a + S1x32x128.size a ≤ S6x32x128.size a
  h_S1x32x128 : 0 < S1x32x128.numel
  shapeCasts_S1x32x128_S32x128 : S1x32x128.ShapeCasts S32x128
  shapeCasts_S32x128_S32x128x1 : S32x128.ShapeCasts S32x128x1
  broadcasts_S32x128x1_S32x128x128 : S32x128x1.Broadcasts S32x128x128
  broadcasts_S1x1x128_S32x128x128 : S1x1x128.Broadcasts S32x128x128
  shapeCasts_S32x1x128_S32x1x128 : S32x1x128.ShapeCasts S32x1x128
  broadcasts_S32x1x128_S32x128x128 : S32x1x128.Broadcasts S32x128x128
  inb_S6x32x128_S1x32x128_1_0_0 : ∀ a, (![1, 0, 0] : Fin 3 → Nat) a + S1x32x128.size a ≤ S6x32x128.size a
  inb_S6x32x128_S1x32x128_2_0_0 : ∀ a, (![2, 0, 0] : Fin 3 → Nat) a + S1x32x128.size a ≤ S6x32x128.size a
  inb_S6x32x128_S1x32x128_3_0_0 : ∀ a, (![3, 0, 0] : Fin 3 → Nat) a + S1x32x128.size a ≤ S6x32x128.size a
  inb_S6x32x128_S1x32x128_4_0_0 : ∀ a, (![4, 0, 0] : Fin 3 → Nat) a + S1x32x128.size a ≤ S6x32x128.size a
  inb_S6x32x128_S1x32x128_5_0_0 : ∀ a, (![5, 0, 0] : Fin 3 → Nat) a + S1x32x128.size a ≤ S6x32x128.size a
  inb_S32x128x256_S32x128x256_0_0_0 : ∀ a, (![0, 0, 0] : Fin 3 → Nat) a + S32x128x256.size a ≤ S32x128x256.size a
  h_S32x128x256 : 0 < S32x128x256.numel
  shapeCasts_S32x128x256_S32x128x256 : S32x128x256.ShapeCasts S32x128x256
  bcast_S256x128x256_S1x256x128x256_1_2_3 : S256x128x256.BroadcastsInDim S1x256x128x256 (![1, 2, 3] : Fin 3 → Fin S1x256x128x256.rank)
  gather_S256x64x3_S256x128x2x1_S256x128x2x3_3_1_0_0_1_3_113_wf : GatherDims.WF S256x64x3 S256x128x2x1 S256x128x2x3 [3] [1] [0] [1] [0] 3 ![1, 1, 3]
  dot_S32x128x128_S32x128x256_S32x128x256_2_1_1_2_0_0_wf : DotDims.WF S32x128x128 S32x128x256 S32x128x256 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128x256.size a ≤ S256x128x256.size a
  hwx0_0 : ∀ i : grid0.Coords, EltTy.bits .f32 = 32 ∨ (Rect.block (s := S256x128x256) S32x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6x32x128.size a ≤ S6x256x128.size a
  hwx0_1 : ∀ i : grid0.Coords, EltTy.bits .i32 = 32 ∨ (Rect.block (s := S6x256x128) S6x32x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S256x128.size a
  hwx0_2 : ∀ i : grid0.Coords, EltTy.bits .f32 = 32 ∨ (Rect.block (s := S256x128) S32x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x128x256.size a ≤ S256x128x256.size a
  hwx0_3 : ∀ i : grid0.Coords, EltTy.bits .f32 = 32 ∨ (Rect.block (s := S256x128x256) S32x128x256.size (cc0_transform_3 i) (hinb0_3 i)).WholeWords (EltTy.packing .f32)

variable [Facts₀]

def gather_S256x64x3_S256x128x2x1_S256x128x2x3_3_1_0_0_1_3_113 : GatherDims S256x64x3 S256x128x2x1 S256x128x2x3 where
  offsetDims := [3]
  collapsedSliceDims := [1]
  operandBatchingDims := [0]
  startIndicesBatchingDims := [0]
  startIndexMap := [1]
  indexVectorDim := 3
  sliceSizes := ![1, 1, 3]
  wf := gather_S256x64x3_S256x128x2x1_S256x128x2x3_3_1_0_0_1_3_113_wf
def dot_S32x128x128_S32x128x256_S32x128x256_2_1_1_2_0_0 : DotDims S32x128x128 S32x128x256 S32x128x256 where
  lhsContracting := [2]
  rhsContracting := [1]
  lhsNonContracting := [1]
  rhsNonContracting := [2]
  lhsBatch := [0]
  rhsBatch := [0]
  wf := dot_S32x128x128_S32x128x256_S32x128x256_2_1_1_2_0_0_wf

abbrev win0_0 : Pipeline.Window sig grid0 :=
  Pipeline.Window.ofSpec (Memref.whole main_v0) S32x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S6x32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S32x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S32x128x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1x256x128x256 : Shape := ⟨4, ![1, 256, 128, 256]⟩
abbrev S256x128x2 : Shape := ⟨3, ![256, 128, 2]⟩
abbrev S256x128x6 : Shape := ⟨3, ![256, 128, 6]⟩
abbrev S256x64x3 : Shape := ⟨3, ![256, 64, 3]⟩
abbrev S_ : Shape := ⟨0, ![]⟩
abbrev S256x128x2x1 : Shape := ⟨4, ![256, 128, 2, 1]⟩
abbrev S256x128x2x3 : Shape := ⟨4, ![256, 128, 2, 3]⟩
abbrev S256x128x1x3 : Shape := ⟨4, ![256, 128, 1, 3]⟩
abbrev S256x128x3 : Shape := ⟨3, ![256, 128, 3]⟩
abbrev S256x128 : Shape := ⟨2, ![256, 128]⟩
abbrev S1x256x128x1 : Shape := ⟨4, ![1, 256, 128, 1]⟩
abbrev S256x128x256 : Shape := ⟨3, ![256, 128, 256]⟩
abbrev S256x128x6x1 : Shape := ⟨4, ![256, 128, 6, 1]⟩
abbrev S256x128x6x256 : Shape := ⟨4, ![256, 128, 6, 256]⟩

abbrev nBuf : Space → Nat
  | .hbm => 47
  | .vmem => 0
  | .smem => 0
  | _ => 0

abbrev bufTy : (tb : Table) → Fin (tcTables nBuf tb) → BufTy
  | .hbm, ⟨0, _⟩ => ⟨S1x256x128x256, .f32⟩
  | .hbm, ⟨1, _⟩ => ⟨S256x128x2, .i32⟩
  | .hbm, ⟨2, _⟩ => ⟨S256x128x6, .i32⟩
  | .hbm, ⟨3, _⟩ => ⟨S256x64x3, .f32⟩
  | .hbm, ⟨4, _⟩ => ⟨S_, .i32⟩
  | .hbm, ⟨5, _⟩ => ⟨S256x128x2, .i32⟩
  | .hbm, ⟨6, _⟩ => ⟨S256x128x2, .i1⟩
  | .hbm, ⟨7, _⟩ => ⟨S_, .i32⟩
  | .hbm, ⟨8, _⟩ => ⟨S256x128x2, .i32⟩
  | .hbm, ⟨9, _⟩ => ⟨S256x128x2, .i32⟩
  | .hbm, ⟨10, _⟩ => ⟨S256x128x2, .i32⟩
  | .hbm, ⟨11, _⟩ => ⟨S256x128x2x1, .i32⟩
  | .hbm, ⟨12, _⟩ => ⟨S256x128x2x3, .f32⟩
  | .hbm, ⟨13, _⟩ => ⟨S256x128x1x3, .f32⟩
  | .hbm, ⟨14, _⟩ => ⟨S256x128x3, .f32⟩
  | .hbm, ⟨15, _⟩ => ⟨S256x128x1x3, .f32⟩
  | .hbm, ⟨16, _⟩ => ⟨S256x128x3, .f32⟩
  | .hbm, ⟨17, _⟩ => ⟨S256x128x3, .f32⟩
  | .hbm, ⟨18, _⟩ => ⟨S256x128x3, .f32⟩
  | .hbm, ⟨19, _⟩ => ⟨S_, .f32⟩
  | .hbm, ⟨20, _⟩ => ⟨S256x128, .f32⟩
  | .hbm, ⟨21, _⟩ => ⟨S_, .f32⟩
  | .hbm, ⟨22, _⟩ => ⟨S256x128, .f32⟩
  | .hbm, ⟨23, _⟩ => ⟨S256x128, .f32⟩
  | .hbm, ⟨24, _⟩ => ⟨S256x128, .f32⟩
  | .hbm, ⟨25, _⟩ => ⟨S_, .f32⟩
  | .hbm, ⟨26, _⟩ => ⟨S256x128, .f32⟩
  | .hbm, ⟨27, _⟩ => ⟨S256x128, .i1⟩
  | .hbm, ⟨28, _⟩ => ⟨S_, .f32⟩
  | .hbm, ⟨29, _⟩ => ⟨S256x128, .f32⟩
  | .hbm, ⟨30, _⟩ => ⟨S256x128, .f32⟩
  | .hbm, ⟨31, _⟩ => ⟨S1x256x128x1, .f32⟩
  | .hbm, ⟨32, _⟩ => ⟨S1x256x128x256, .f32⟩
  | .hbm, ⟨33, _⟩ => ⟨S1x256x128x256, .f32⟩
  | .hbm, ⟨34, _⟩ => ⟨S256x128x256, .f32⟩
  | .hbm, ⟨35, _⟩ => ⟨S_, .i32⟩
  | .hbm, ⟨36, _⟩ => ⟨S256x128x6, .i32⟩
  | .hbm, ⟨37, _⟩ => ⟨S256x128x6, .i1⟩
  | .hbm, ⟨38, _⟩ => ⟨S_, .i32⟩
  | .hbm, ⟨39, _⟩ => ⟨S256x128x6, .i32⟩
  | .hbm, ⟨40, _⟩ => ⟨S256x128x6, .i32⟩
  | .hbm, ⟨41, _⟩ => ⟨S256x128x6, .i32⟩
  | .hbm, ⟨42, _⟩ => ⟨S256x128x6x1, .i32⟩
  | .hbm, ⟨43, _⟩ => ⟨S256x128x6x256, .f32⟩
  | .hbm, ⟨44, _⟩ => ⟨S_, .f32⟩
  | .hbm, ⟨45, _⟩ => ⟨S256x128x256, .f32⟩
  | .hbm, ⟨46, _⟩ => ⟨S1x256x128x256, .f32⟩
  | _, _ => ⟨S1x256x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_cst : Ref sig .tc := ⟨.hbm, 25, rfl⟩
abbrev main_call0_v1 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_3 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]

class Facts₀ : Prop where
  bcast_S_S256x128x2 : S_.BroadcastsInDim S256x128x2 (![] : Fin 0 → Fin S256x128x2.rank)
  bcast_S256x128x2_S256x128x2x1_0_1_2 : S256x128x2.BroadcastsInDim S256x128x2x1 (![0, 1, 2] : Fin 3 → Fin S256x128x2x1.rank)
  slices_S256x128x2x3_S256x128x1x3_0_0_0_0 : S256x128x2x3.Slices ![0, 0, 0, 0] S256x128x1x3
  shapeCasts_S256x128x1x3_S256x128x3 : S256x128x1x3.ShapeCasts S256x128x3
  slices_S256x128x2x3_S256x128x1x3_0_0_1_0 : S256x128x2x3.Slices ![0, 0, 1, 0] S256x128x1x3
  reducesTo_S256x128x3_S256x128_d2 : S256x128x3.ReducesTo [2] S256x128
  h_S_ : 0 < S_.numel
  bcast_S_S256x128 : S_.BroadcastsInDim S256x128 (![] : Fin 0 → Fin S256x128.rank)
  bcast_S256x128_S1x256x128x1_1_2 : S256x128.BroadcastsInDim S1x256x128x1 (![1, 2] : Fin 2 → Fin S1x256x128x1.rank)
  bcast_S1x256x128x1_S1x256x128x256_0_1_2_3 : S1x256x128x1.BroadcastsInDim S1x256x128x256 (![0, 1, 2, 3] : Fin 4 → Fin S1x256x128x256.rank)
  shapeCasts_S1x256x128x256_S256x128x256 : S1x256x128x256.ShapeCasts S256x128x256
  bcast_S_S256x128x6 : S_.BroadcastsInDim S256x128x6 (![] : Fin 0 → Fin S256x128x6.rank)
  bcast_S256x128x6_S256x128x6x1_0_1_2 : S256x128x6.BroadcastsInDim S256x128x6x1 (![0, 1, 2] : Fin 3 → Fin S256x128x6x1.rank)
  reducesTo_S256x128x6x256_S256x128x256_d2 : S256x128x6x256.ReducesTo [2] S256x128x256
  bcast_S256x128x256_S1x256x128x256_1_2_3 : S256x128x256.BroadcastsInDim S1x256x128x256 (![1, 2, 3] : Fin 3 → Fin S1x256x128x256.rank)
  gather_S256x64x3_S256x128x2x1_S256x128x2x3_3_1_0_0_1_3_113_wf : GatherDims.WF S256x64x3 S256x128x2x1 S256x128x2x3 [3] [1] [0] [1] [0] 3 ![1, 1, 3]
  gather_S256x128x256_S256x128x6x1_S256x128x6x256_3_1_0_0_1_3_11256_wf : GatherDims.WF S256x128x256 S256x128x6x1 S256x128x6x256 [3] [1] [0] [1] [0] 3 ![1, 1, 256]

variable [Facts₀]

def gather_S256x64x3_S256x128x2x1_S256x128x2x3_3_1_0_0_1_3_113 : GatherDims S256x64x3 S256x128x2x1 S256x128x2x3 where
  offsetDims := [3]
  collapsedSliceDims := [1]
  operandBatchingDims := [0]
  startIndicesBatchingDims := [0]
  startIndexMap := [1]
  indexVectorDim := 3
  sliceSizes := ![1, 1, 3]
  wf := gather_S256x64x3_S256x128x2x1_S256x128x2x3_3_1_0_0_1_3_113_wf
def gather_S256x128x256_S256x128x6x1_S256x128x6x256_3_1_0_0_1_3_11256 : GatherDims S256x128x256 S256x128x6x1 S256x128x6x256 where
  offsetDims := [3]
  collapsedSliceDims := [1]
  operandBatchingDims := [0]
  startIndicesBatchingDims := [0]
  startIndexMap := [1]
  indexVectorDim := 3
  sliceSizes := ![1, 1, 256]
  wf := gather_S256x128x256_S256x128x6x1_S256x128x6x256_3_1_0_0_1_3_11256_wf

class Facts : Prop extends Facts₀ where

variable [Facts]
-- ==== Proof.Spec.lean ====
/-
  The message sum, stated once over plain index coordinates.

  For a batch entry `b`, an edge `e` and a feature `h` the result is the sum, over the six neighbour words of
  `(b, e)`, of the weight of the named row times that row's feature. Two arrangements of that number appear:

  * `refAt`: the six named rows are read one after the other and their weighted features added;
  * `kerAt`: for every row `e'` of the 128 a coefficient is built first, by six passes each adding the weight
    of row `e'` when the pass's neighbour word names `e'` and zero otherwise (`acc6`), and the coefficients
    are then contracted against the features of all 128 rows.

  They agree when every neighbour word names a row (lies below 128) and weights and features are real numbers:
  Proof/Algebra.lean.
-/
import Idealize.ShloMosaic.PureOps.Ideal
import Idealize.ShloMosaic.Lib.ValueIdx

noncomputable section

open scoped BigOperators

namespace Cert.Msg

open Idealize.ShloMosaic Idealize.ShloMosaic.ValueIdx

/-- The features `[1, 256, 128, 256]`, the neighbour words `[256, 128, 6]`, the weights `[256, 128]`. -/
abbrev SFeat : Shape := ⟨4, ![1, 256, 128, 256]⟩
abbrev SNb : Shape := ⟨3, ![256, 128, 6]⟩
abbrev SW : Shape := ⟨2, ![256, 128]⟩

/-- One pass of the coefficient build at row `e'`: the weight `dv` when the word `w` names `e'`, else zero. -/
def pick (w : BitVec 32) (dv : EReal) (e' : Fin 128) : EReal :=
  if w = BitVec.ofNat 32 e'.val then dv else 0

/-- The six passes, added left to right as the body adds them. -/
def acc6 (w : Fin 6 → BitVec 32) (dv : EReal) (e' : Fin 128) : EReal :=
  ((((pick (w 0) dv e' + pick (w 1) dv e') + pick (w 2) dv e') + pick (w 3) dv e') + pick (w 4) dv e') + pick (w 5) dv e'

/-- The row a neighbour word names: the word itself when it lies below 128. -/
def row (w : BitVec 32) : Fin 128 := ⟨w.toNat % 128, Nat.mod_lt _ (by decide)⟩

/-- Coefficients first, then one contraction over all 128 rows. -/
def kerAt (d : SW.Idx → EReal) (f : SFeat.Idx → EReal) (nb : SNb.Idx → BitVec 32)
    (b : Fin 256) (e : Fin 128) (h : Fin 256) : EReal :=
  ∑ e' : Fin 128, acc6 (fun k => nb (ix3 b e k)) (d (ix2 b e')) e' * f (ix4 (0 : Fin 1) b e' h)

/-- The six named rows read one after the other. -/
def refAt (d : SW.Idx → EReal) (f : SFeat.Idx → EReal) (nb : SNb.Idx → BitVec 32)
    (b : Fin 256) (e : Fin 128) (h : Fin 256) : EReal :=
  ∑ k : Fin 6, d (ix2 b (row (nb (ix3 b e k)))) * f (ix4 (0 : Fin 1) b (row (nb (ix3 b e k))) h)

/-- The whole result array `[1, 256, 128, 256]` in the second arrangement. -/
def refArr (d : SW.Idx → EReal) (f : SFeat.Idx → EReal) (nb : SNb.Idx → BitVec 32) : SFeat.Idx → EReal :=
  fun i => refAt d f nb (i 1) (i 2) (i 3)

/-- The whole result array in the first arrangement. -/
def kerArr (d : SW.Idx → EReal) (f : SFeat.Idx → EReal) (nb : SNb.Idx → BitVec 32) : SFeat.Idx → EReal :=
  fun i => kerAt d f nb (i 1) (i 2) (i 3)

end Cert.Msg

end
-- ==== Proof.Algebra.lean ====
/-
  The two arrangements of the message sum agree.

  With real weights and features, and every neighbour word naming a row, the coefficient of row `e'` is the weight of
  `e'` counted once per neighbour word that names `e'`. Multiplying by the feature of `e'`, exchanging the sum over
  rows with the sum over the six words, and keeping for each word the one row it names gives the six named rows'
  weighted features. Distributing a product over the six-term sum is where real (finite) values are needed: the
  identity is proved over the reals and carried to the extended reals through the coercion.
-/
import proofs.«415500_j89885075571226_3_alg».proof.Proof.Spec
import Mathlib.Data.EReal.Basic
import Mathlib.Algebra.BigOperators.Fin
import Mathlib.Algebra.BigOperators.Ring.Finset

noncomputable section

open scoped BigOperators

namespace Cert.Msg

open Idealize.ShloMosaic Idealize.ShloMosaic.ValueIdx

/-- The coercion of the reals into the extended reals commutes with finite sums. -/
theorem coe_sum {ι : Type} (s : Finset ι) (g : ι → ℝ) : ((∑ i ∈ s, g i : ℝ) : EReal) = ∑ i ∈ s, ((g i : ℝ) : EReal) := by
  classical
  refine Finset.induction_on s ?_ ?_
  · simp
  · intro a s ha ih
    rw [Finset.sum_insert ha, Finset.sum_insert ha, EReal.coe_add, ih]

/-- A word below 128 is the 32-bit word of the row it names. -/
theorem word_eq_row {w : BitVec 32} (hw : w.toNat < 128) : w = BitVec.ofNat 32 (row w).val := by
  apply BitVec.eq_of_toNat_eq
  rw [BitVec.toNat_ofNat]
  show w.toNat = w.toNat % 128 % 2 ^ 32
  omega

/-- A word that is the 32-bit word of row `e'` names `e'`. -/
theorem row_of_word {w : BitVec 32} (e' : Fin 128) (h : w = BitVec.ofNat 32 e'.val) : row w = e' := by
  apply Fin.ext
  show w.toNat % 128 = e'.val
  rw [h, BitVec.toNat_ofNat]
  have := e'.isLt
  omega

/-- Over the reals: coefficients contracted against all rows are the six named rows' products. -/
theorem real_core (w : Fin 6 → BitVec 32) (hw : ∀ k, (w k).toNat < 128) (d' f' : Fin 128 → ℝ) :
    ∑ e' : Fin 128, (∑ k : Fin 6, if w k = BitVec.ofNat 32 e'.val then d' e' else 0) * f' e'
      = ∑ k : Fin 6, d' (row (w k)) * f' (row (w k)) := by
  simp_rw [Finset.sum_mul]
  rw [Finset.sum_comm]
  refine Finset.sum_congr rfl fun k _ => ?_
  rw [Finset.sum_eq_single (row (w k))]
  · rw [if_pos (word_eq_row (hw k))]
  · intro e' _ hne
    rw [if_neg (fun h => hne (row_of_word e' h).symm), zero_mul]
  · intro h
    exact absurd (Finset.mem_univ _) h

/-- One pass at a real weight is the coercion of the real pass. -/
theorem pick_coe (w : BitVec 32) (x : ℝ) (e' : Fin 128) :
    pick w ((x : ℝ) : EReal) e' = (((if w = BitVec.ofNat 32 e'.val then x else 0 : ℝ)) : EReal) := by
  unfold pick
  split <;> simp

/-- THE LAW: with real weights and features and every neighbour word below 128 the two arrangements are equal. -/
theorem kerAt_eq_refAt (d : SW.Idx → EReal) (f : SFeat.Idx → EReal) (nb : SNb.Idx → BitVec 32)
    (hd : ∀ j, ∃ r : ℝ, d j = ((r : ℝ) : EReal)) (hf : ∀ j, ∃ r : ℝ, f j = ((r : ℝ) : EReal))
    (hnb : ∀ j, (nb j).toNat < 128) (b : Fin 256) (e : Fin 128) (h : Fin 256) :
    kerAt d f nb b e h = refAt d f nb b e h := by
  choose d' hd' using hd
  choose f' hf' using hf
  unfold kerAt refAt
  have hL : ∀ e' : Fin 128, acc6 (fun k => nb (ix3 b e k)) (d (ix2 b e')) e' * f (ix4 (0 : Fin 1) b e' h)
      = (((∑ k : Fin 6, if nb (ix3 b e k) = BitVec.ofNat 32 e'.val then d' (ix2 b e') else 0) * f' (ix4 (0 : Fin 1) b e' h) : ℝ) : EReal) := by
    intro e'
    rw [hd', hf', Fin.sum_univ_six]
    unfold acc6
    simp only [pick_coe, EReal.coe_mul, EReal.coe_add]
  have hR : ∀ k : Fin 6, d (ix2 b (row (nb (ix3 b e k)))) * f (ix4 (0 : Fin 1) b (row (nb (ix3 b e k))) h)
      = (((d' (ix2 b (row (nb (ix3 b e k)))) * f' (ix4 (0 : Fin 1) b (row (nb (ix3 b e k))) h) : ℝ)) : EReal) := by
    intro k
    rw [hd', hf', EReal.coe_mul]
  rw [Finset.sum_congr rfl (fun e' _ => hL e'), Finset.sum_congr rfl (fun k _ => hR k), ← coe_sum, ← coe_sum]
  exact congrArg _ (real_core (fun k => nb (ix3 b e k)) (fun k => hnb _) (fun e' => d' (ix2 b e')) (fun e' => f' (ix4 (0 : Fin 1) b e' h)))

/-- The same for the whole arrays. -/
theorem kerArr_eq_refArr (d : SW.Idx → EReal) (f : SFeat.Idx → EReal) (nb : SNb.Idx → BitVec 32)
    (hd : ∀ j, ∃ r : ℝ, d j = ((r : ℝ) : EReal)) (hf : ∀ j, ∃ r : ℝ, f j = ((r : ℝ) : EReal))
    (hnb : ∀ j, (nb j).toNat < 128) : kerArr d f nb = refArr d f nb :=
  funext fun i => kerAt_eq_refAt d f nb hd hf hnb (i 1) (i 2) (i 3)

end Cert.Msg

end
-- ==== Proof.Pre.lean ====
/-
  What the precondition says of the inputs, element by element: every feature is a real number, and every
  neighbour word lies in the row range [0, 128).
-/
import proofs.«415500_j89885075571226_3_alg».proof.Pre_finite_inputs
import proofs.«415500_j89885075571226_3_alg».proof.Proof.Spec
import Idealize.ShloMosaic.Lib.StableHlo.Predicate
import Idealize.ShloMosaic.Lib.ReduceAll

noncomputable section

open scoped BigOperators

namespace Cert.Msg

open Idealize.ShloMosaic Idealize.ShloMosaic.ValueIdx

variable [Cert.Pre_finite_inputs.Facts]

/-- The scalar shape has one index. -/
instance subsingletonScalarIdx : Subsingleton Cert.Pre_finite_inputs.S_.Idx := ⟨fun a b => funext fun d => d.elim0⟩

/-- An extended real whose absolute value lies strictly below the pattern of plus infinity is a real number:
    at either infinity the absolute value is plus infinity itself. -/
theorem real_of_abs_lt_inf (x : EReal)
    (a : Ideal.cmp .olt (max x (-x)) (Ideal.ofBits .f32 0x7F800000#32) = 1#1) : ∃ r : ℝ, x = ((r : ℝ) : EReal) := by
  have htop : Ideal.ofBits .f32 0x7F800000#32 = (⊤ : EReal) := by simp [Ideal.ofBits, Ideal.ieee]
  rw [htop] at a
  induction x using EReal.rec with
  | bot => simp [Ideal.cmp] at a
  | coe r => exact ⟨r, rfl⟩
  | top => simp [Ideal.cmp] at a

/-- A 32-bit word that is at least 0 and below 128 as a signed number is below 128 as a natural number. -/
theorem toNat_lt_of_signed_range (w : BitVec 32)
    (h0 : IntOp.cmpi .sge w 0#32 = 1#1) (h1 : IntOp.cmpi .slt w 128#32 = 1#1) : w.toNat < 128 := by
  have hge : (0 : Int) ≤ w.toInt := by
    simpa [IntOp.cmpi, StableHlo.Predicate.ofBool_eq_one_iff, BitVec.sle] using h0
  have hlt : w.toInt < 128 := by
    simpa [IntOp.cmpi, StableHlo.Predicate.ofBool_eq_one_iff, BitVec.slt] using h1
  have hw := w.isLt
  rw [BitVec.toInt_eq_toNat_cond] at hge hlt
  split at hge <;> omega

/-- From the precondition evaluated to all ones: the features are real, the neighbour words below 128. -/
theorem pre_decode (x0 : FVec Ideal Cert.Pre_finite_inputs.S1x256x128x256 .f32) (x1 : IVec Cert.Pre_finite_inputs.S256x128x2 32)
    (x2 : IVec Cert.Pre_finite_inputs.S256x128x6 32) (x3 : FVec Ideal Cert.Pre_finite_inputs.S256x64x3 .f32)
    (h : Cert.Pre_finite_inputs.fn (F := Ideal) x0 x1 x2 x3 = fun _ => 1#1) :
    (∀ j, ∃ r : ℝ, x0 j = ((r : ℝ) : EReal)) ∧ (∀ j, (x2 j).toNat < 128) := by
  have e := congrFun h ValueIdx.ix0
  dsimp only [Cert.Pre_finite_inputs.fn] at e
  -- the outer conjunction: (both float arrays finite) and (every word in range)
  obtain ⟨e03, e2⟩ := IntOp.andi_eq_one.1 (show IntOp.andi _ _ = 1#1 from e)
  obtain ⟨e0, -⟩ := IntOp.andi_eq_one.1 (show IntOp.andi _ _ = 1#1 from e03)
  refine ⟨fun j => ?_, fun j => ?_⟩
  · -- a conjunction over all indices that is 1 has a 1 at every index: |x0 j| lies below plus infinity
    have a := Host.reduce_andi_all _ _ _ _ _ e0 j
    exact real_of_abs_lt_inf (x0 j) a
  · -- at index j both comparisons are 1: 0 ≤ x2 j and x2 j < 128, signed
    have a := Host.reduce_andi_all _ _ _ _ _ e2 j
    obtain ⟨a0, a1⟩ := IntOp.andi_eq_one.1 (show IntOp.andi _ _ = 1#1 from a)
    exact toNat_lt_of_signed_range (x2 j) a0 a1

end Cert.Msg

end
-- ==== Proof.RefSide.lean ====
/-
  The reference's result, read at an index: the six gathered rows of the weighted features, added.
-/
import proofs.«415500_j89885075571226_3_alg».proof.Proof.Gen.ReferenceIdeal.Read
import proofs.«415500_j89885075571226_3_alg».proof.Proof.Spec
import Idealize.ShloMosaic.Lib.ValueIdx
import Idealize.ShloMosaic.PureOps.Ideal.Laws
import Idealize.ShloMosaic.Lib.StableHlo.Predicate

noncomputable section

open scoped BigOperators

namespace Cert.Msg

open Idealize.ShloMosaic Idealize.ShloMosaic.ValueIdx Cert.ReferenceIdeal Cert.ReferenceIdeal.Gen

local notation "gd29" => gather_S256x128x256_S256x128x6x1_S256x128x6x256_3_1_0_0_1_3_11256

/-- The gather of the reference read at `(b, e, k, h)`: the operand at batch entry `b`, at the row the start word at
    `(b, e, k, 0)` names once read signed and clamped into `[0, 127]`, at feature `h`. -/
private theorem gather29_apply {α : Type} {w : Nat} (x : S256x128x256.Idx → α) (idx : IVec S256x128x6x1 w)
    (b : Fin 256) (e : Fin 128) (k : Fin 6) (h : Fin 256) (r : Fin 128)
    (hr : r.val = min (idx (ix4 b e k (0 : Fin 1))).toInt.toNat 127) :
    Host.gather gd29 x idx (ix4 b e k h) = x (ix3 b r h) := by
  unfold Host.gather
  congr 1
  funext a
  refine Fin.ext ?_
  match a with
  | ⟨0, _⟩ =>
    -- the batching axis: the result's own batch coordinate
    have hb : (0 : Fin 3) ∈ (gd29).operandBatchingDims := List.mem_singleton.mpr rfl
    show (gd29).start (ix4 b e k h) idx 0 + (gd29).batchCoord (ix4 b e k h) 0 + (gd29).offCoord (ix4 b e k h) 0 = b.val
    rw [GatherDims.start_batching _ _ _ _ hb,
      GatherDims.offCoord_eq_zero _ _ _ (fun hh => ((GatherDims.mem_sKept _ _).mp hh).2 hb)]
    simp only [Nat.zero_add, Nat.add_zero]
    unfold GatherDims.batchCoord
    rw [dif_pos hb]
    rfl
  | ⟨1, _⟩ =>
    -- the collapsed axis: the clamped start word
    have hm : (1 : Fin 3) ∈ (gd29).startIndexMap := List.mem_singleton.mpr rfl
    have hc : (1 : Fin 3) ∈ (gd29).collapsedSliceDims := List.mem_singleton.mpr rfl
    have hnb : (1 : Fin 3) ∉ (gd29).operandBatchingDims := by decide
    show (gd29).start (ix4 b e k h) idx 1 + (gd29).batchCoord (ix4 b e k h) 1 + (gd29).offCoord (ix4 b e k h) 1 = r.val
    rw [GatherDims.batchCoord_eq_zero _ _ _ hnb,
      GatherDims.offCoord_eq_zero _ _ _ (fun hh => ((GatherDims.mem_sKept _ _).mp hh).1 hc)]
    simp only [Nat.add_zero]
    unfold GatherDims.start
    rw [dif_pos hm]
    have hsi : (gd29).siIdx (ix4 b e k h) ⟨List.idxOf (1 : Fin 3) (gd29).startIndexMap, List.idxOf_lt_length_iff.2 hm⟩
        = ix4 b e k (0 : Fin 1) := by
      funext c; refine Fin.ext ?_
      match c with
      | ⟨0, _⟩ => rfl
      | ⟨1, _⟩ => rfl
      | ⟨2, _⟩ => rfl
      | ⟨3, _⟩ => rfl
    rw [hsi, hr]
    rfl
  | ⟨2, _⟩ =>
    -- the offset axis: the result's feature coordinate
    have hm : (2 : Fin 3) ∉ (gd29).startIndexMap := by decide
    have hnb : (2 : Fin 3) ∉ (gd29).operandBatchingDims := by decide
    have hk : (2 : Fin 3) ∈ (gd29).sKept := by decide
    show (gd29).start (ix4 b e k h) idx 2 + (gd29).batchCoord (ix4 b e k h) 2 + (gd29).offCoord (ix4 b e k h) 2 = h.val
    rw [GatherDims.batchCoord_eq_zero _ _ _ hnb]
    unfold GatherDims.start GatherDims.offCoord
    rw [dif_neg hm, dif_pos hk]
    simp only [Nat.zero_add, Nat.add_zero]
    rfl

/-- A word below 128 is not negative, so the wrap-around select keeps it. -/
private theorem select_neg_wrap {w : BitVec 32} (hw : w.toNat < 128) (u : BitVec 32) :
    Scalar.select (IntOp.cmpi .slt w 0#32) u w = w := by
  have h0 : IntOp.cmpi .slt w 0#32 = 0#1 := by
    apply eq_zero_of_ne_one
    rw [StableHlo.Predicate.slt_iff_toNat (by omega) (by decide)]
    simp
  rw [h0, select_zero]

/-- A word below 128, read signed and clamped into `[0, 127]`, is the row it names. -/
private theorem row_eq_clamp {w : BitVec 32} (hw : w.toNat < 128) : (row w).val = min w.toInt.toNat 127 := by
  show w.toNat % 128 = min w.toInt.toNat 127
  rw [StableHlo.Predicate.toInt_eq_toNat_of_lt (by omega), Int.toNat_natCast]
  omega

/-- The weight array is real at every entry: an infinite reciprocal is replaced by zero. -/
theorem weight_real (x1 : (⟨S256x128x2, .i32⟩ : BufTy).Contents (Elt Ideal)) (x3 : (⟨S256x64x3, .f32⟩ : BufTy).Contents (Elt Ideal))
    (j : S256x128.Idx) : ∃ r : ℝ, Cert.ReferenceIdeal.Read.val_main_v18 (F := Ideal) x1 x3 j = ((r : ℝ) : EReal) := by
  -- at j the entry is "0 if |a| = +∞ else a", a the reciprocal there, whatever extended real a is
  rw [Read.val_main_v18_apply, Read.val_main_v16_apply, Read.val_main_call0_v0_apply, Read.val_main_call0_v1_apply,
    Read.val_main_call0_cst_apply, Read.val_main_v17_apply, Read.val_main_cst_2_apply]
  generalize Read.val_main_v15 (F := Ideal) x1 x3 j = a
  have htop : Ideal.ofBits .f32 0x7F800000#32 = ⊤ := by simp [Ideal.ofBits, Ideal.ieee]
  simp only [Ideal.ofBits_def, Ideal.hostAbsf_def, Ideal.absf_def, Ideal.cmpf_def, Ideal.cmp, htop, Ideal.ofBits_zero_f32,
    Scalar.select]
  induction a using EReal.rec with
  | bot => exact ⟨0, by simp⟩
  | top => exact ⟨0, by simp⟩
  | coe r => exact ⟨r, by simp⟩

/-- The reference's result array is the sum over the six named rows, when every neighbour word names a row. -/
theorem ref_eq (x0 : (⟨S1x256x128x256, .f32⟩ : BufTy).Contents (Elt Ideal)) (x1 : (⟨S256x128x2, .i32⟩ : BufTy).Contents (Elt Ideal))
    (x2 : (⟨S256x128x6, .i32⟩ : BufTy).Contents (Elt Ideal)) (x3 : (⟨S256x64x3, .f32⟩ : BufTy).Contents (Elt Ideal))
    (hnb : ∀ j, (x2 j).toNat < 128) :
    Cert.ReferenceIdeal.Read.val_main_v31 (F := Ideal) x0 x1 x2 x3
      = refArr (Cert.ReferenceIdeal.Read.val_main_v18 (F := Ideal) x1 x3) x0 x2 := by
  funext i
  obtain ⟨a, b, e, h, rfl⟩ : ∃ (a : Fin 1) (b : Fin 256) (e : Fin 128) (h : Fin 256), i = ix4 a b e h :=
    ⟨i 0, i 1, i 2, i 3, eq_ix4 i⟩
  obtain rfl : a = 0 := Subsingleton.elim _ _
  show _ = refAt _ x0 x2 b e h
  unfold refAt
  -- the result is the broadcast of the sum over the six gathered rows, which starts from zero
  have h31 : Read.idx_main_v31 (ix4 (0 : Fin 1) b e h) = ix3 b e h := by
    funext c; match c with | ⟨0, _⟩ => rfl | ⟨1, _⟩ => rfl | ⟨2, _⟩ => rfl
  rw [Read.val_main_v31_apply, h31, Read.val_main_v30_apply, Read.val_main_cst_5_apply, Ideal.ofBits_def,
    Ideal.ofBits_zero_f32, zero_add]
  refine Finset.sum_congr rfl fun k _ => ?_
  have h30 : Read.idx_main_v30 (ix3 b e h) k = ix4 b e k h := by
    funext c; match c with | ⟨0, _⟩ => rfl | ⟨1, _⟩ => rfl | ⟨2, _⟩ => rfl | ⟨3, _⟩ => rfl
  rw [h30]
  -- the start word at (b, e, k, 0) is the neighbour word itself
  have h28 : Read.idx_main_v28 (ix4 b e k (0 : Fin 1)) = ix3 b e k := by
    funext c; match c with | ⟨0, _⟩ => rfl | ⟨1, _⟩ => rfl | ⟨2, _⟩ => rfl
  have hw : Read.val_main_v28 (F := Ideal) x2 (ix4 b e k (0 : Fin 1)) = x2 (ix3 b e k) := by
    rw [Read.val_main_v28_apply, h28, Read.val_main_v27_apply, Read.val_main_v24_apply, Read.val_main_v23_apply,
      Read.val_main_c_3_apply]
    exact select_neg_wrap (hnb _) _
  unfold Read.val_main_v29
  rw [gather29_apply _ _ b e k h (row (x2 (ix3 b e k))) (by rw [hw]; exact row_eq_clamp (hnb _))]
  generalize row (x2 (ix3 b e k)) = r
  -- the gathered operand at (b, r, h): the weight of row r times its feature
  have h22 : Read.idx_main_v22 (ix3 b r h) = ix4 (0 : Fin 1) b r h := by
    have hb := b.isLt; have hr := r.isLt; have hh := h.isLt
    funext c; refine Fin.ext ?_
    match c with
    | ⟨0, _⟩ => rfl
    | ⟨1, _⟩ => show ((b.val * 128 + r.val) * 256 + h.val) / 32768 % 256 = b.val; omega
    | ⟨2, _⟩ => show ((b.val * 128 + r.val) * 256 + h.val) / 256 % 128 = r.val; omega
    | ⟨3, _⟩ => show ((b.val * 128 + r.val) * 256 + h.val) % 256 = h.val; omega
  have h20 : Read.idx_main_v20 (ix4 (0 : Fin 1) b r h) = ix4 (0 : Fin 1) b r (0 : Fin 1) := by
    funext c; match c with | ⟨0, _⟩ => rfl | ⟨1, _⟩ => rfl | ⟨2, _⟩ => rfl | ⟨3, _⟩ => rfl
  have h19 : Read.idx_main_v19 (ix4 (0 : Fin 1) b r (0 : Fin 1)) = ix2 b r := by
    funext c; match c with | ⟨0, _⟩ => rfl | ⟨1, _⟩ => rfl
  rw [Read.val_main_v22_apply, h22, Read.val_main_v21_apply, Ideal.mulf_def, Read.val_main_v20_apply, h20,
    Read.val_main_v19_apply, h19]

end Cert.Msg

end
-- ==== Proof.KerBody.lean ====
/-
  What one grid point's body leaves in the output block, read at an entry: the six-pass coefficients of the
  point's neighbour and weight blocks contracted against the point's feature block.
-/
import proofs.«415500_j89885075571226_3_alg».proof.Proof.Gen.KernelIdeal.Frame
import proofs.«415500_j89885075571226_3_alg».proof.Proof.Spec
import Idealize.ShloMosaic.Lib.ValueIdx
import Idealize.ShloMosaic.Lib.Pipeline.Value
import Idealize.ShloMosaic.PureOps.Ideal.Laws

noncomputable section

open scoped BigOperators

namespace Cert.Msg

open Idealize.ShloMosaic Idealize.ShloMosaic.ValueIdx Cert.KernelIdeal Cert.KernelIdeal.Gen

namespace KerBody

/-- Row 0 of the neighbour block, loaded as a one-row block, read at `(0, b, e)`: the block at `(0, b, e)`. -/
theorem ld_row0 (x1 : Vec Ideal S6x32x128 .i32) (b : Fin 32) (e : Fin 128) :
    View.ld x1 r0_1 (ix3 (0 : Fin 1) b e) = x1 (ix3 (0 : Fin 6) b e) := by
  show x1 (r0_1.idx (ix3 (0 : Fin 1) b e)) = _
  refine congrArg x1 (funext fun a => Fin.ext ?_)
  match a with
  | ⟨0, _⟩ => rfl
  | ⟨1, _⟩ => show 0 + 1 * b.val = b.val; omega
  | ⟨2, _⟩ => show 0 + 1 * e.val = e.val; omega

/-- The same for row 1. -/
theorem ld_row1 (x1 : Vec Ideal S6x32x128 .i32) (b : Fin 32) (e : Fin 128) :
    View.ld x1 r0_2 (ix3 (0 : Fin 1) b e) = x1 (ix3 (1 : Fin 6) b e) := by
  show x1 (r0_2.idx (ix3 (0 : Fin 1) b e)) = _
  refine congrArg x1 (funext fun a => Fin.ext ?_)
  match a with
  | ⟨0, _⟩ => rfl
  | ⟨1, _⟩ => show 0 + 1 * b.val = b.val; omega
  | ⟨2, _⟩ => show 0 + 1 * e.val = e.val; omega

/-- The same for row 2. -/
theorem ld_row2 (x1 : Vec Ideal S6x32x128 .i32) (b : Fin 32) (e : Fin 128) :
    View.ld x1 r0_3 (ix3 (0 : Fin 1) b e) = x1 (ix3 (2 : Fin 6) b e) := by
  show x1 (r0_3.idx (ix3 (0 : Fin 1) b e)) = _
  refine congrArg x1 (funext fun a => Fin.ext ?_)
  match a with
  | ⟨0, _⟩ => rfl
  | ⟨1, _⟩ => show 0 + 1 * b.val = b.val; omega
  | ⟨2, _⟩ => show 0 + 1 * e.val = e.val; omega

/-- The same for row 3. -/
theorem ld_row3 (x1 : Vec Ideal S6x32x128 .i32) (b : Fin 32) (e : Fin 128) :
    View.ld x1 r0_4 (ix3 (0 : Fin 1) b e) = x1 (ix3 (3 : Fin 6) b e) := by
  show x1 (r0_4.idx (ix3 (0 : Fin 1) b e)) = _
  refine congrArg x1 (funext fun a => Fin.ext ?_)
  match a with
  | ⟨0, _⟩ => rfl
  | ⟨1, _⟩ => show 0 + 1 * b.val = b.val; omega
  | ⟨2, _⟩ => show 0 + 1 * e.val = e.val; omega

/-- The same for row 4. -/
theorem ld_row4 (x1 : Vec Ideal S6x32x128 .i32) (b : Fin 32) (e : Fin 128) :
    View.ld x1 r0_5 (ix3 (0 : Fin 1) b e) = x1 (ix3 (4 : Fin 6) b e) := by
  show x1 (r0_5.idx (ix3 (0 : Fin 1) b e)) = _
  refine congrArg x1 (funext fun a => Fin.ext ?_)
  match a with
  | ⟨0, _⟩ => rfl
  | ⟨1, _⟩ => show 0 + 1 * b.val = b.val; omega
  | ⟨2, _⟩ => show 0 + 1 * e.val = e.val; omega

/-- The same for row 5. -/
theorem ld_row5 (x1 : Vec Ideal S6x32x128 .i32) (b : Fin 32) (e : Fin 128) :
    View.ld x1 r0_6 (ix3 (0 : Fin 1) b e) = x1 (ix3 (5 : Fin 6) b e) := by
  show x1 (r0_6.idx (ix3 (0 : Fin 1) b e)) = _
  refine congrArg x1 (funext fun a => Fin.ext ?_)
  match a with
  | ⟨0, _⟩ => rfl
  | ⟨1, _⟩ => show 0 + 1 * b.val = b.val; omega
  | ⟨2, _⟩ => show 0 + 1 * e.val = e.val; omega

/-- The zero offsets of a whole-block access, at rank 2 and at rank 3. -/
theorem zeros2 : (![0, 0] : Fin 2 → Nat) = fun _ => 0 := funext fun a => by fin_cases a <;> rfl
theorem zeros3 : (![0, 0, 0] : Fin 3 → Nat) = fun _ => 0 := funext fun a => by fin_cases a <;> rfl

/-- The weight block loaded whole is the block. -/
theorem ld_wt (x2 : Vec Ideal S32x128 .f32) (i : S32x128.Idx) : View.ld x2 r0_0 i = x2 i :=
  congrFun (View.ld_unit_zero (S := S32x128) zeros2 _ x2) i

/-- The feature block loaded whole is the block. -/
theorem ld_feat (x0 : Vec Ideal S32x128x256 .f32) (i : S32x128x256.Idx) : View.ld x0 r0_7 i = x0 i :=
  congrFun (View.ld_unit_zero (S := S32x128x256) zeros3 _ x0) i

/-- The bf16 zero word denotes the extended real zero. -/
theorem bf16_zero : (Scalar.ofBits (F := Ideal) .bf16 0x0000#16 : EReal) = 0 := by
  show Ideal.ofBits .bf16 0x0000#16 = 0
  simp [Ideal.ofBits, Ideal.ieee]

/-- A one-row block of neighbour words cast to 32 × 128, then to 32 × 128 × 1, then broadcast along the last axis, read at
    `(b, e, e')`: the word at `(0, b, e)`. -/
theorem nbw_apply (v : IVec S1x32x128 32) (b : Fin 32) (e e' : Fin 128) :
    broadcastTo S32x128x128 (shapeCast S32x128x1 (shapeCast S32x128 v shapeCasts_S1x32x128_S32x128) shapeCasts_S32x128_S32x128x1)
      broadcasts_S32x128x1_S32x128x128 (ix3 b e e') = v (ix3 (0 : Fin 1) b e) := by
  refine (broadcastTo_apply _ _ (ix3 b e e') (ix3 b e (0 : Fin 1)) (fun a => ?_)).trans ?_
  · match a with
    | ⟨0, _⟩ => rfl
    | ⟨1, _⟩ => rfl
    | ⟨2, _⟩ => rfl
  refine (shapeCast_apply _ _ (ix3 b e (0 : Fin 1)) (ix2 b e) ?_).trans ?_
  · rw [Shape.rowMajor_val_two, Shape.rowMajor_val_three]
    show b.val * 128 + e.val = (b.val * 128 + e.val) * 1 + 0
    omega
  refine shapeCast_apply _ _ (ix2 b e) (ix3 (0 : Fin 1) b e) ?_
  rw [Shape.rowMajor_val_two, Shape.rowMajor_val_three]
  show (0 * 32 + b.val) * 128 + e.val = b.val * 128 + e.val
  omega

/-- The lane numbers 0 … 127 broadcast over the block, read at `(b, e, e')`: the word of `e'`. -/
theorem lane_apply (b : Fin 32) (e e' : Fin 128) :
    broadcastTo S32x128x128 (iota .tc S1x1x128 32 [2] iota_S1x1x128_d2_w32) broadcasts_S1x1x128_S32x128x128 (ix3 b e e')
      = BitVec.ofNat 32 e'.val := by
  refine (broadcastTo_apply _ _ (ix3 b e e') (ix3 (0 : Fin 1) (0 : Fin 1) e') (fun a => ?_)).trans ?_
  · match a with
    | ⟨0, _⟩ => rfl
    | ⟨1, _⟩ => rfl
    | ⟨2, _⟩ => rfl
  exact iota_single_apply .tc S1x1x128 32 2 _ _

/-- The weight block cast to 32 × 1 × 128 and broadcast along the middle axis, read at `(b, e, e')`: the weight at `(b, e')`. -/
theorem wt_apply (x2 : Vec Ideal S32x128 .f32) (b : Fin 32) (e e' : Fin 128) :
    (broadcastTo S32x128x128 (shapeCast S32x1x128 (k0_pay2 (F := Ideal) x2) shapeCasts_S32x1x128_S32x1x128)
      broadcasts_S32x1x128_S32x128x128 (ix3 b e e') : EReal) = x2 (ix2 b e') := by
  refine (broadcastTo_apply _ _ (ix3 b e e') (ix3 b (0 : Fin 1) e') (fun a => ?_)).trans ?_
  · match a with
    | ⟨0, _⟩ => rfl
    | ⟨1, _⟩ => rfl
    | ⟨2, _⟩ => rfl
  rw [shapeCast_self]
  unfold k0_pay2
  refine (shapeCast_apply _ _ (ix3 b (0 : Fin 1) e') (ix2 b e') ?_).trans ?_
  · rw [Shape.rowMajor_val_two, Shape.rowMajor_val_three]
    show b.val * 128 + e'.val = (b.val * 1 + 0) * 128 + e'.val
    omega
  rw [shapeCast_self]
  rfl

/-- One pass at an entry: the weight where the neighbour word names the lane, else zero. -/
theorem pass_apply (NB IO : IVec S32x128x128 32) (W : FVec Ideal S32x128x128 .bf16) (j : S32x128x128.Idx)
    (w : BitVec 32) (dv : EReal) (e' : Fin 128) (hN : NB j = w) (hI : IO j = BitVec.ofNat 32 e'.val) (hW : W j = dv) :
    select (cmpi .eq NB IO) W (broadcast S32x128x128 (Scalar.ofBits (F := Ideal) .bf16 0x0000#16)) j = pick w dv e' := by
  show Scalar.select (IntOp.cmpi .eq (NB j) (IO j)) (W j) (Scalar.ofBits (F := Ideal) .bf16 0x0000#16) = _
  rw [hN, hI, hW, bf16_zero]
  have hc : IntOp.cmpi .eq w (BitVec.ofNat 32 e'.val) = BitVec.ofBool (w == BitVec.ofNat 32 e'.val) := rfl
  rw [hc]
  unfold pick Scalar.select
  by_cases h : w = BitVec.ofNat 32 e'.val
  · rw [if_pos h, if_pos (by rw [h]; simp)]
  · have hb : (w == BitVec.ofNat 32 e'.val) = false := beq_eq_false_iff_ne.mpr h
    rw [if_neg h, if_neg (by rw [hb]; decide)]

/-- The product's operand indices axis by axis: contraction over the left operand's axis 2 and the right operand's
    axis 1, batch axis 0 on both; every other axis reads the output index. -/
theorem lhs_ax0 (j : S32x128x256.Idx) (k : dot_S32x128x128_S32x128x256_S32x128x256_2_1_1_2_0_0.contr.Idx) :
    (dot_S32x128x128_S32x128x256_S32x128x256_2_1_1_2_0_0.lhsIdx j k 0).val = (j 0).val := by
  simp [DotDims.lhsIdx, dot_S32x128x128_S32x128x256_S32x128x256_2_1_1_2_0_0]; rfl
theorem lhs_ax1 (j : S32x128x256.Idx) (k : dot_S32x128x128_S32x128x256_S32x128x256_2_1_1_2_0_0.contr.Idx) :
    (dot_S32x128x128_S32x128x256_S32x128x256_2_1_1_2_0_0.lhsIdx j k 1).val = (j 1).val := by
  simp [DotDims.lhsIdx, dot_S32x128x128_S32x128x256_S32x128x256_2_1_1_2_0_0]; rfl
theorem lhs_ax2 (j : S32x128x256.Idx) (k : dot_S32x128x128_S32x128x256_S32x128x256_2_1_1_2_0_0.contr.Idx) :
    (dot_S32x128x128_S32x128x256_S32x128x256_2_1_1_2_0_0.lhsIdx j k 2).val = (k ⟨0, by decide⟩).val :=
  DotDims.lhsIdx_val_of_single _ rfl j k
theorem rhs_ax0 (j : S32x128x256.Idx) (k : dot_S32x128x128_S32x128x256_S32x128x256_2_1_1_2_0_0.contr.Idx) :
    (dot_S32x128x128_S32x128x256_S32x128x256_2_1_1_2_0_0.rhsIdx j k 0).val = (j 0).val := by
  simp [DotDims.rhsIdx, dot_S32x128x128_S32x128x256_S32x128x256_2_1_1_2_0_0]; rfl
theorem rhs_ax1 (j : S32x128x256.Idx) (k : dot_S32x128x128_S32x128x256_S32x128x256_2_1_1_2_0_0.contr.Idx) :
    (dot_S32x128x128_S32x128x256_S32x128x256_2_1_1_2_0_0.rhsIdx j k 1).val = (k ⟨0, by decide⟩).val :=
  DotDims.rhsIdx_val_of_single _ rfl j k
theorem rhs_ax2 (j : S32x128x256.Idx) (k : dot_S32x128x128_S32x128x256_S32x128x256_2_1_1_2_0_0.contr.Idx) :
    (dot_S32x128x128_S32x128x256_S32x128x256_2_1_1_2_0_0.rhsIdx j k 2).val = (j 2).val := by
  simp [DotDims.rhsIdx, dot_S32x128x128_S32x128x256_S32x128x256_2_1_1_2_0_0]; rfl

/-- The left operand's index at output entry `(b, e, h)` and contraction position `c` is `(b, e, c)`. -/
theorem lhs_at (b : Fin 32) (e : Fin 128) (h : Fin 256) (c : Fin 128) :
    dot_S32x128x128_S32x128x256_S32x128x256_2_1_1_2_0_0.lhsIdx (ix3 b e h) ((contrEquiv1 dot_S32x128x128_S32x128x256_S32x128x256_2_1_1_2_0_0 128 rfl rfl).symm c) = ix3 b e c := by
  funext ax; apply Fin.ext
  match ax with
  | ⟨0, _⟩ => exact lhs_ax0 _ _
  | ⟨1, _⟩ => exact lhs_ax1 _ _
  | ⟨2, _⟩ => exact (lhs_ax2 _ _).trans (contrEquiv1_symm_val dot_S32x128x128_S32x128x256_S32x128x256_2_1_1_2_0_0 128 rfl rfl c)

/-- The right operand's index there is `(b, c, h)`. -/
theorem rhs_at (b : Fin 32) (e : Fin 128) (h : Fin 256) (c : Fin 128) :
    dot_S32x128x128_S32x128x256_S32x128x256_2_1_1_2_0_0.rhsIdx (ix3 b e h) ((contrEquiv1 dot_S32x128x128_S32x128x256_S32x128x256_2_1_1_2_0_0 128 rfl rfl).symm c) = ix3 b c h := by
  funext ax; apply Fin.ext
  match ax with
  | ⟨0, _⟩ => exact rhs_ax0 _ _
  | ⟨1, _⟩ => exact (rhs_ax1 _ _).trans (contrEquiv1_symm_val dot_S32x128x128_S32x128x256_S32x128x256_2_1_1_2_0_0 128 rfl rfl c)
  | ⟨2, _⟩ => exact rhs_ax2 _ _

/-- The batched product into the zero accumulator, read at `(b, e, h)`: the sum over the 128 contraction positions. -/
theorem mm_apply (A : FVec Ideal S32x128x128 .bf16) (B : FVec Ideal S32x128x256 .bf16) (b : Fin 32) (e : Fin 128) (h : Fin 256) :
    FloatOps.matmul dot_S32x128x128_S32x128x256_S32x128x256_2_1_1_2_0_0 none A B (constant (F := Ideal) S32x128x256 .f32 0x00000000#32) (ix3 b e h)
      = ∑ c : Fin 128, A (ix3 b e c) * B (ix3 b c h) := by
  rw [Ideal.matmul_constant_zero_apply, ← Equiv.sum_comp (contrEquiv1 dot_S32x128x128_S32x128x256_S32x128x256_2_1_1_2_0_0 128 rfl rfl).symm]
  refine Finset.sum_congr rfl fun c _ => ?_
  rw [lhs_at, rhs_at]

/-- One pass over a loaded row `v` of neighbour words and the weight block `w2`, read at `(b, e, e')`. -/
theorem pass_row (w2 : Vec Ideal S32x128 .f32) (v : IVec S1x32x128 32) (b : Fin 32) (e e' : Fin 128) (n : BitVec 32) (dv : EReal)
    (hn : v (ix3 (0 : Fin 1) b e) = n) (hd : w2 (ix2 b e') = dv) :
    select (cmpi .eq
        (broadcastTo S32x128x128 (shapeCast S32x128x1 (shapeCast S32x128 v shapeCasts_S1x32x128_S32x128) shapeCasts_S32x128_S32x128x1)
          broadcasts_S32x128x1_S32x128x128)
        (broadcastTo S32x128x128 (iota .tc S1x1x128 32 [2] iota_S1x1x128_d2_w32) broadcasts_S1x1x128_S32x128x128))
      (broadcastTo S32x128x128 (shapeCast S32x1x128 (k0_pay2 (F := Ideal) w2) shapeCasts_S32x1x128_S32x1x128)
        broadcasts_S32x1x128_S32x128x128)
      (broadcast S32x128x128 (Scalar.ofBits (F := Ideal) .bf16 0x0000#16)) (ix3 b e e') = pick n dv e' :=
  pass_apply _ _ _ _ _ _ _ ((nbw_apply v b e e').trans hn) (lane_apply b e e') ((wt_apply w2 b e e').trans hd)

/-- The first three passes, added left to right. -/
theorem pay3_apply (w2 : Vec Ideal S32x128 .f32) (v5 v15 v26 : Vec Ideal S1x32x128 .i32) (b : Fin 32) (e e' : Fin 128)
    (n0 n1 n2 : BitVec 32) (dv : EReal) (h0 : v5 (ix3 (0 : Fin 1) b e) = n0) (h1 : v15 (ix3 (0 : Fin 1) b e) = n1)
    (h2 : v26 (ix3 (0 : Fin 1) b e) = n2) (hd : w2 (ix2 b e') = dv) :
    (k0_pay3 (F := Ideal) w2 v5 v15 v26 (ix3 b e e') : EReal) = (pick n0 dv e' + pick n1 dv e') + pick n2 dv e' := by
  unfold k0_pay3
  simp only [addf_apply]
  rw [pass_row w2 v5 b e e' n0 dv h0 hd, pass_row w2 v15 b e e' n1 dv h1 hd, pass_row w2 v26 b e e' n2 dv h2 hd]

/-- The feature block narrowed for the product reads its own entries. -/
theorem feat_apply (v70 : Vec Ideal S32x128x256 .f32) (i : S32x128x256.Idx) :
    (truncf (F := Ideal) .bf16 (shapeCast S32x128x256 v70 shapeCasts_S32x128x256_S32x128x256) bitsLt_bf16_f32 i : EReal) = v70 i := by
  rw [shapeCast_self]; rfl

end KerBody

open KerBody

/-- The output block of a point at entry `(b, e, h)`, from the point's feature block `x0` (32 × 128 × 256), neighbour
    block `x1` (6 × 32 × 128) and weight block `x2` (32 × 128). -/
theorem out_block_apply (x0 : Vec Ideal S32x128x256 .f32) (x1 : Vec Ideal S6x32x128 .i32) (x2 : Vec Ideal S32x128 .f32)
    (b : Fin 32) (e : Fin 128) (h : Fin 256) :
    Cert.KernelIdeal.Gen.out0_3 (F := Ideal) x0 x1 x2 (ix3 b e h)
      = ∑ e' : Fin 128, acc6 (fun k => x1 (ix3 k b e)) (x2 (ix2 b e')) e' * x0 (ix3 b e' h) := by
  unfold Cert.KernelIdeal.Gen.out0_3
  rw [View.canon_unit_zero zeros3]
  unfold k0_pay1
  simp only [matmul]
  refine (mm_apply _ _ b e h).trans ?_
  refine Finset.sum_congr rfl fun c _ => ?_
  refine congrArg₂ (· * ·) ?_ ((feat_apply _ _).trans (ld_feat x0 _))
  simp only [addf_apply]
  unfold acc6 k0_pay4 k0_pay5
  rw [pay3_apply (View.ld x2 r0_0) (View.ld x1 r0_1) (View.ld x1 r0_2) (View.ld x1 r0_3) b e c _ _ _ _
      (ld_row0 x1 b e) (ld_row1 x1 b e) (ld_row2 x1 b e) (ld_wt x2 _),
    pass_row (View.ld x2 r0_0) (View.ld x1 r0_4) b e c _ _ (ld_row3 x1 b e) (ld_wt x2 _),
    pass_row (View.ld x2 r0_0) (View.ld x1 r0_5) b e c _ _ (ld_row4 x1 b e) (ld_wt x2 _),
    pass_row (View.ld x2 r0_0) (View.ld x1 r0_6) b e c _ _ (ld_row5 x1 b e) (ld_wt x2 _)]

end Cert.Msg

end
-- ==== Proof.KerArr.lean ====
/-
  From the eight blocks to the whole output array of the region: entry `(b, e, h)` is what the point covering batch
  row `b` wrote there, a function of the arrays as the region found them.
-/
import proofs.«415500_j89885075571226_3_alg».proof.Proof.KerBody

noncomputable section

open scoped BigOperators

namespace Cert.Msg

open Idealize.ShloMosaic Idealize.ShloMosaic.ValueIdx Idealize.SL.Sem Cert.KernelIdeal Cert.KernelIdeal.Gen

variable (m : (ℓ : Loc nD τ sig) → Buf (Elt Ideal) ℓ)

/-- Entry `(b, e, h)` of the whole result. -/
def msgAt (c : Dev nD) (b : Fin 256) (e : Fin 128) (h : Fin 256) : EReal :=
  ∑ e' : Fin 128, acc6 (fun k => V m c main_v20 (ix3 k b e)) (V m c main_v19 (ix2 b e')) e' * V m c main_v0 (ix3 b e' h)

/-- The whole result `[256, 128, 256]` as one array of the three input arrays as the region finds them. -/
def msgArr (c : Dev nD) : S256x128x256.Idx → Elt Ideal .f32 := fun i => msgAt m c (i 0) (i 1) (i 2)

/-- The block indices at point `t`: every window moves along its batch axis with the point and stays at block `0`
    on its other axes; the grid has eight points. -/
theorem blockIndex : ∀ t : Fin cfg0.N,
    win0_0.index t (0 : Fin 3) = t.val ∧ win0_0.index t (1 : Fin 3) = 0 ∧ win0_0.index t (2 : Fin 3) = 0
    ∧ win0_1.index t (0 : Fin 3) = 0 ∧ win0_1.index t (1 : Fin 3) = t.val ∧ win0_1.index t (2 : Fin 3) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0
    ∧ t.val < 8 :=
  (by decide +kernel : ∀ t : Fin grid0.N, _)

/-- Point `t`'s feature block (32 × 128 × 256), neighbour block (6 × 32 × 128) and weight block (32 × 128). -/
abbrev featBlk (c : Dev nD) (t : Fin cfg0.N) : Vec Ideal S32x128x256 .f32 := iblk m c 0 t
abbrev nbBlk (c : Dev nD) (t : Fin cfg0.N) : Vec Ideal S6x32x128 .i32 := iblk m c 1 t
abbrev wtBlk (c : Dev nD) (t : Fin cfg0.N) : Vec Ideal S32x128 .f32 := iblk m c 2 t

/-- Point `t`'s feature block holds batch rows `32 t … 32 t + 31` of the features. -/
theorem featBlk_apply (c : Dev nD) (t : Fin cfg0.N) (y : S32x128x256.Idx) (i : S256x128x256.Idx)
    (h0 : (i 0).val = 32 * t.val + (y 0).val) (h1 : (i 1).val = (y 1).val) (h2 : (i 2).val = (y 2).val) :
    featBlk m c t y = V m c main_v0 i := by
  obtain ⟨e0, e1, e2, -⟩ := blockIndex t
  unfold featBlk iblk
  rw [View.read_apply]
  show V m c main_v0 _ = V m c main_v0 _
  congr 1
  funext a
  apply Fin.ext
  match a with
  | ⟨0, _⟩ => show win0_0.index t (0 : Fin 3) * 32 + 1 * (y 0).val = (i 0).val; rw [e0, h0]; omega
  | ⟨1, _⟩ => show win0_0.index t (1 : Fin 3) * 128 + 1 * (y 1).val = (i 1).val; rw [e1, h1]; omega
  | ⟨2, _⟩ => show win0_0.index t (2 : Fin 3) * 256 + 1 * (y 2).val = (i 2).val; rw [e2, h2]; omega

/-- Point `t`'s neighbour block holds, for each of the six passes, batch rows `32 t … 32 t + 31` of the neighbour words. -/
theorem nbBlk_apply (c : Dev nD) (t : Fin cfg0.N) (y : S6x32x128.Idx) (i : S6x256x128.Idx)
    (h0 : (i 0).val = (y 0).val) (h1 : (i 1).val = 32 * t.val + (y 1).val) (h2 : (i 2).val = (y 2).val) :
    nbBlk m c t y = V m c main_v20 i := by
  obtain ⟨-, -, -, e0, e1, e2, -⟩ := blockIndex t
  unfold nbBlk iblk
  rw [View.read_apply]
  show V m c main_v20 _ = V m c main_v20 _
  congr 1
  funext a
  apply Fin.ext
  match a with
  | ⟨0, _⟩ => show win0_1.index t (0 : Fin 3) * 6 + 1 * (y 0).val = (i 0).val; rw [e0, h0]; omega
  | ⟨1, _⟩ => show win0_1.index t (1 : Fin 3) * 32 + 1 * (y 1).val = (i 1).val; rw [e1, h1]; omega
  | ⟨2, _⟩ => show win0_1.index t (2 : Fin 3) * 128 + 1 * (y 2).val = (i 2).val; rw [e2, h2]; omega

/-- Point `t`'s weight block holds batch rows `32 t … 32 t + 31` of the weights. -/
theorem wtBlk_apply (c : Dev nD) (t : Fin cfg0.N) (y : S32x128.Idx) (i : S256x128.Idx)
    (h0 : (i 0).val = 32 * t.val + (y 0).val) (h1 : (i 1).val = (y 1).val) :
    wtBlk m c t y = V m c main_v19 i := by
  obtain ⟨-, -, -, -, -, -, e0, e1, -⟩ := blockIndex t
  unfold wtBlk iblk
  rw [View.read_apply]
  show V m c main_v19 _ = V m c main_v19 _
  congr 1
  funext a
  apply Fin.ext
  match a with
  | ⟨0, _⟩ => show win0_2.index t (0 : Fin 2) * 32 + 1 * (y 0).val = (i 0).val; rw [e0, h0]; omega
  | ⟨1, _⟩ => show win0_2.index t (1 : Fin 2) * 128 + 1 * (y 1).val = (i 1).val; rw [e1, h1]; omega

/-- The output block of a point at any of its entries. -/
theorem out_block_at (x0 : Vec Ideal S32x128x256 .f32) (x1 : Vec Ideal S6x32x128 .i32) (x2 : Vec Ideal S32x128 .f32)
    (y : S32x128x256.Idx) :
    Cert.KernelIdeal.Gen.out0_3 (F := Ideal) x0 x1 x2 y
      = ∑ e' : Fin 128, acc6 (fun k => x1 (ix3 k (y 0) (y 1))) (x2 (ix2 (y 0) e')) e' * x0 (ix3 (y 0) e' (y 2)) :=
  (congrArg (Cert.KernelIdeal.Gen.out0_3 (F := Ideal) x0 x1 x2) (eq_ix3 y)).trans (out_block_apply x0 x1 x2 (y 0) (y 1) (y 2))

/-- What point `t` leaves in its output block, at block entry `y`, is the whole result at the array entry `i` the
    block entry lies at: batch row `32 t + y 0`, the same edge and feature. -/
theorem out_block_eq (c : Dev nD) (t : Fin cfg0.N) (y : S32x128x256.Idx) (i : S256x128x256.Idx)
    (h0 : (i 0).val = 32 * t.val + (y 0).val) (h1 : (i 1).val = (y 1).val) (h2 : (i 2).val = (y 2).val) :
    Cert.KernelIdeal.Gen.out0_3 (F := Ideal) (featBlk m c t) (nbBlk m c t) (wtBlk m c t) y = msgArr m c i := by
  rw [out_block_at]
  unfold msgArr msgAt
  refine Finset.sum_congr rfl fun e' _ => ?_
  have hf : featBlk m c t (ix3 (y 0) e' (y 2)) = V m c main_v0 (ix3 (i 0) e' (i 2)) :=
    featBlk_apply m c t (ix3 (y 0) e' (y 2)) (ix3 (i 0) e' (i 2)) h0 rfl h2
  have hw : wtBlk m c t (ix2 (y 0) e') = V m c main_v19 (ix2 (i 0) e') :=
    wtBlk_apply m c t (ix2 (y 0) e') (ix2 (i 0) e') h0 rfl
  have hn : (fun k : Fin 6 => nbBlk m c t (ix3 k (y 0) (y 1))) = fun k : Fin 6 => V m c main_v20 (ix3 k (i 0) (i 1)) :=
    funext fun k => nbBlk_apply m c t (ix3 k (y 0) (y 1)) (ix3 k (i 0) (i 1)) rfl h0 h1
  rw [hf, hw, hn]

/-- What point `t` writes back is block `t` of the whole result. -/
theorem flushed_eq (c : Dev nD) (t : Fin cfg0.N) :
    (dats m 0 c).flushed 3 t = ((cfg0.win 3).blk t).view.read (Elt Ideal) (msgArr m c) := by
  show (cfg0.win 3).cut (grid0.coords t) ((dats m 0 c).after 3 t) = _
  rw [after0_3]
  obtain ⟨-, -, -, -, -, -, -, -, e0, e1, e2, -⟩ := blockIndex t
  funext j
  show Cert.KernelIdeal.Gen.out0_3 (F := Ideal) (featBlk m c t) (nbBlk m c t) (wtBlk m c t) ((cfg0.win 3).xinj (grid0.coords t) j)
    = msgArr m c (((cfg0.win 3).blk t).view.emb j)
  refine out_block_eq m c t ((cfg0.win 3).xinj (grid0.coords t) j) (((cfg0.win 3).blk t).view.emb j) ?_ ?_ ?_
  · show win0_3.index t (0 : Fin 3) * 32 + 1 * (j 0).val = 32 * t.val + (j 0).val
    rw [e0]; omega
  · show win0_3.index t (1 : Fin 3) * 128 + 1 * (j 1).val = (j 1).val
    rw [e1]; omega
  · show win0_3.index t (2 : Fin 3) * 256 + 1 * (j 2).val = (j 2).val
    rw [e2]; omega

/-- An entry of the array is in point `t`'s block iff each coordinate is in the block's range on its axis. -/
theorem mem_blk (t : Fin cfg0.N) (i : S256x128x256.Idx) :
    i ∈ ((cfg0.win 3).blk t).view.set ↔ ∀ a : Fin 3, win0_3.index t a * S32x128x256.size a ≤ (i a).val
      ∧ (i a).val < win0_3.index t a * S32x128x256.size a + S32x128x256.size a := by
  show i ∈ ((View.whole main_v21).slice (win0_3.rect t)).set ↔ _
  rw [View.set_slice_whole, Rect.mem_set_unit]
  exact Iff.rfl

/-- Every entry of the array is in the block of the point covering its batch row: row `b` is point `b / 32`'s. -/
theorem covered (i : S256x128x256.Idx) :
    ∃ t : Fin cfg0.N, (cfg0.win 3).flush t = true ∧ i ∈ ((cfg0.win 3).blk t).view.set := by
  have hi0 : (i 0).val < 256 := (i 0).isLt
  have hi1 : (i 1).val < 128 := (i 1).isLt
  have hi2 : (i 2).val < 256 := (i 2).isLt
  have hN : cfg0.N = 8 := N_0
  obtain ⟨t, ht⟩ : ∃ t : Fin cfg0.N, t.val = (i 0).val / 32 := ⟨⟨(i 0).val / 32, by rw [hN]; omega⟩, rfl⟩
  obtain ⟨-, -, -, -, -, -, -, -, e0, e1, e2, -⟩ := blockIndex t
  refine ⟨t, flush0_3 t, ?_⟩
  rw [mem_blk]
  intro a
  match a with
  | ⟨0, _⟩ =>
    show win0_3.index t (0 : Fin 3) * 32 ≤ (i 0).val ∧ (i 0).val < win0_3.index t (0 : Fin 3) * 32 + 32
    rw [e0, ht]; omega
  | ⟨1, _⟩ =>
    show win0_3.index t (1 : Fin 3) * 128 ≤ (i 1).val ∧ (i 1).val < win0_3.index t (1 : Fin 3) * 128 + 128
    rw [e1]; omega
  | ⟨2, _⟩ =>
    show win0_3.index t (2 : Fin 3) * 256 ≤ (i 2).val ∧ (i 2).val < win0_3.index t (2 : Fin 3) * 256 + 256
    rw [e2]; omega

/-- The region's output array after the run is the whole result. -/
theorem final3 (c : Dev nD) : (dats m 0 c).arrAt 3 cfg0.N = msgArr m c :=
  (dats m 0 c).arrAt_eq_of_cover 3 (msgArr m c) (fun t _ => flushed_eq m c t) covered

/-- The region's output array after the run at `(b, e, h)`, over the region-entry contents of its three input arrays. -/
theorem final3_apply (c : Dev nD) (b : Fin 256) (e : Fin 128) (h : Fin 256) :
    (dats m 0 c).arrAt 3 cfg0.N (ix3 b e h)
      = ∑ e' : Fin 128, acc6 (fun k => V m c main_v20 (ix3 k b e)) (V m c main_v19 (ix2 b e')) e' * V m c main_v0 (ix3 b e' h) := by
  exact congrFun (final3 m c) (ix3 b e h)

end Cert.Msg

end
-- ==== Proof.KerHost.lean ====
/-
  The host lines around the region, and the kernel's run with its result named.

  Before the region @main drops the features' leading unit axis, computes the weights, and moves the neighbour words'
  last axis to the front; after it, it puts the leading unit axis back on the region's output. Read at an entry each is
  a re-indexing: the feature array at (b, e, h) is the argument at (0, b, e, h); the neighbour array at (k, b, e) is the
  argument at (b, e, k); the weights are the same composed term as the reference's weight stage; and the result at
  (0, b, e, h) is the region's output at (b, e, h).
-/
import proofs.«415500_j89885075571226_3_alg».proof.Proof.KerArr
import proofs.«415500_j89885075571226_3_alg».proof.Proof.Gen.ReferenceIdeal.Read
import Idealize.ShloMosaic.Lib.StableHlo.Run
import Idealize.ShloMosaic.Lib.Pipeline.Value

noncomputable section

open scoped BigOperators

namespace Cert.Msg

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## The arrays the region finds -/

/-- The feature array the region finds is the argument with its leading unit axis dropped. -/
theorem V_feat_eq (c : Dev nD) :
    (V m c main_v0 : S256x128x256.Idx → EReal)
      = shapeCast S256x128x256 (m ((c : Thread nD τ).loc main_arg0)) shapeCasts_S1x256x128x256_S256x128x256 := by
  dsimp only [V, V0]
  simp only [hostOps0, hostOps0_1, hostOps0_2, hostOps0_3, hostOps0_4, List.flatten_cons, List.flatten_nil, List.append_nil,
    List.cons_append, List.nil_append]
  after_results
  rfl

/-- Read at (b, e, h): the argument at (0, b, e, h), the same row-major position. -/
theorem V_feat_apply (c : Dev nD) (b : Fin 256) (e : Fin 128) (h : Fin 256) :
    (V m c main_v0 : S256x128x256.Idx → EReal) (ix3 b e h) = m ((c : Thread nD τ).loc main_arg0) (ix4 (0 : Fin 1) b e h) := by
  rw [V_feat_eq]
  exact shapeCast_apply _ shapeCasts_S1x256x128x256_S256x128x256 (ix3 b e h) (ix4 (0 : Fin 1) b e h)
    (by rewrite [Shape.rowMajor_val_four, Shape.rowMajor_val_three]
        show ((0 * 256 + b.val) * 128 + e.val) * 256 + h.val = (b.val * 128 + e.val) * 256 + h.val
        omega)

/-- The neighbour array the region finds is the argument with its last axis moved to the front. -/
theorem V_nb_eq (c : Dev nD) :
    (V m c main_v20 : S6x256x128.Idx → BitVec 32)
      = transpose S6x256x128 [2, 0, 1] (m ((c : Thread nD τ).loc main_arg2)) transposes_S256x128x6_S6x256x128_2_0_1 := by
  dsimp only [V, V0]
  simp only [hostOps0, hostOps0_1, hostOps0_2, hostOps0_3, hostOps0_4, List.flatten_cons, List.flatten_nil, List.append_nil,
    List.cons_append, List.nil_append]
  after_results

/-- Read at (k, b, e): the argument at (b, e, k). -/
theorem V_nb_apply (c : Dev nD) (k : Fin 6) (b : Fin 256) (e : Fin 128) :
    (V m c main_v20 : S6x256x128.Idx → BitVec 32) (ix3 k b e) = m ((c : Thread nD τ).loc main_arg2) (ix3 b e k) := by
  rw [V_nb_eq]
  exact transpose_apply _ _ transposes_S256x128x6_S6x256x128_2_0_1 (ix3 k b e) (ix3 b e k)
    (fun a => match a with
      | ⟨0, _⟩ => rfl
      | ⟨1, _⟩ => rfl
      | ⟨2, _⟩ => rfl)

set_option maxHeartbeats 4000000 in
set_option maxRecDepth 8192 in
/-- The weight array the region finds is the reference's weight stage of the same arguments: one composed term. -/
theorem V_w_eq (c : Dev nD) :
    (V m c main_v19 : S256x128.Idx → EReal)
      = Cert.ReferenceIdeal.Read.val_main_v18 (F := Ideal) (m ((c : Thread nD τ).loc main_arg1)) (m ((c : Thread nD τ).loc main_arg3)) := by
  dsimp only [V, V0]
  simp only [hostOps0, hostOps0_1, hostOps0_2, hostOps0_3, hostOps0_4, List.flatten_cons, List.flatten_nil, List.append_nil,
    List.cons_append, List.nil_append]
  after_results
  rfl

end Cert.Msg

end
-- ==== Proof.KerRun.lean ====
/-
  The kernel's run with its result named: on every device @main ends with its result array holding, at
  (0, b, e, h), the coefficients of (b, e) contracted against the features of batch entry b at feature h, the
  arguments unchanged.
-/
import proofs.«415500_j89885075571226_3_alg».proof.Proof.KerHost

noncomputable section

open scoped BigOperators

namespace Cert.Msg

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The coefficient arrangement over the arrays the region finds is the one over @main's arguments: those arrays are
    re-indexings of the arguments. -/
theorem found_eq_args (c : Dev nD) (b : Fin 256) (e : Fin 128) (h : Fin 256) :
    (∑ e' : Fin 128, acc6 (fun k => (V m c main_v20 : S6x256x128.Idx → BitVec 32) (ix3 k b e))
        ((V m c main_v19 : S256x128.Idx → EReal) (ix2 b e')) e' * (V m c main_v0 : S256x128x256.Idx → EReal) (ix3 b e' h) : EReal)
      = kerAt (Cert.ReferenceIdeal.Read.val_main_v18 (F := Ideal) (m ((c : Thread nD τ).loc main_arg1)) (m ((c : Thread nD τ).loc main_arg3))) (m ((c : Thread nD τ).loc main_arg0)) (m ((c : Thread nD τ).loc main_arg2)) b e h := by
  unfold kerAt
  refine Finset.sum_congr rfl fun e' _ => ?_
  have hk : (fun k : Fin 6 => (V m c main_v20 : S6x256x128.Idx → BitVec 32) (ix3 k b e))
      = fun k : Fin 6 => (m ((c : Thread nD τ).loc main_arg2)) (ix3 b e k) :=
    funext fun k => V_nb_apply m c k b e
  rw [hk, V_feat_apply m c b e' h, congrFun (V_w_eq m c) (ix2 b e')]

/-- The region's output at (b, e, h), over @main's arguments. -/
theorem region_out_apply (c : Dev nD) (b : Fin 256) (e : Fin 128) (h : Fin 256) :
    (dats m 0 c).arrAt 3 cfg0.N (ix3 b e h) = kerAt (Cert.ReferenceIdeal.Read.val_main_v18 (F := Ideal) (m ((c : Thread nD τ).loc main_arg1)) (m ((c : Thread nD τ).loc main_arg3))) (m ((c : Thread nD τ).loc main_arg0)) (m ((c : Thread nD τ).loc main_arg2)) b e h :=
  (final3_apply m c b e h).trans (found_eq_args m c b e h)

/-- After the region @main puts the leading unit axis back: its result is the region's output array, broadcast. -/
theorem tail_eq (c : Dev nD) :
    (Pipeline.afterTail₀ cfgs (dats m) 0 (V0 m) [hostOps1] c main_v22 : S1x256x128x256.Idx → EReal)
      = broadcastInDim S1x256x128x256 ![1, 2, 3] bcast_S256x128x256_S1x256x128x256_1_2_3
          ((dats m 0 c).arrAt 3 cfg0.N : S256x128x256.Idx → EReal) := by
  unfold Pipeline.afterTail₀
  show StableHlo.after hostOps1 _ (Proc.devRef .tc main_v22) = _
  after_results
  exact congrArg _ (Pipeline.withArrays_arr spec0 launch0.win.arr_inj c _ _ 3)

/-- The result array, entry by entry. -/
theorem result_eq (c : Dev nD) :
    (Pipeline.afterTail₀ cfgs (dats m) 0 (V0 m) [hostOps1] c main_v22 : S1x256x128x256.Idx → EReal)
      = kerArr (Cert.ReferenceIdeal.Read.val_main_v18 (F := Ideal) (m ((c : Thread nD τ).loc main_arg1)) (m ((c : Thread nD τ).loc main_arg3))) (m ((c : Thread nD τ).loc main_arg0)) (m ((c : Thread nD τ).loc main_arg2)) := by
  rw [tail_eq]
  funext i
  obtain ⟨a, b, e, h, rfl⟩ : ∃ (a : Fin 1) (b : Fin 256) (e : Fin 128) (h : Fin 256), i = ix4 a b e h :=
    ⟨i 0, i 1, i 2, i 3, eq_ix4 i⟩
  show _ = kerAt _ _ _ b e h
  rw [← region_out_apply m c b e h]
  exact broadcastInDim_apply _ bcast_S256x128x256_S1x256x128x256_1_2_3 _ (ix4 a b e h) (ix3 b e h) (fun ax => match ax with
    | ⟨0, _⟩ => by show b.val = if (256 : Nat) = 1 then 0 else b.val; rw [if_neg (by decide)]
    | ⟨1, _⟩ => by show e.val = if (128 : Nat) = 1 then 0 else e.val; rw [if_neg (by decide)]
    | ⟨2, _⟩ => by show h.val = if (256 : Nat) = 1 then 0 else h.val; rw [if_neg (by decide)])

/-- THE KERNEL'S RUN: every weakly fair execution of @main terminates with the result array at the coefficient
    arrangement of the arguments and the arguments unchanged. -/
theorem kernel_run : θ_run defs (onTc (τ := τ) (main (F := Ideal))) ⟨m, fun _ => 0, ρ⟩ (fun r => ∀ c : Dev nD,
      r.2.mem ((c : Thread nD τ).loc main_v22) = kerArr (Cert.ReferenceIdeal.Read.val_main_v18 (F := Ideal) (m ((c : Thread nD τ).loc main_arg1)) (m ((c : Thread nD τ).loc main_arg3))) (m ((c : Thread nD τ).loc main_arg0)) (m ((c : Thread nD τ).loc main_arg2))
      ∧ r.2.mem ((c : Thread nD τ).loc main_arg0) = (m ((c : Thread nD τ).loc main_arg0))
      ∧ r.2.mem ((c : Thread nD τ).loc main_arg1) = (m ((c : Thread nD τ).loc main_arg1))
      ∧ r.2.mem ((c : Thread nD τ).loc main_arg2) = (m ((c : Thread nD τ).loc main_arg2))
      ∧ r.2.mem ((c : Thread nD τ).loc main_arg3) = (m ((c : Thread nD τ).loc main_arg3))) :=
  (θ_run defs _ _).mono (fun r hr c =>
    ⟨((hr c).2 main_v22 (Pipeline.mem_restRefs_of main_v22 (by decide) (by decide))).trans (result_eq m c),
      ((hr c).2 main_arg0 (Pipeline.mem_restRefs_of main_arg0 (by decide) (by decide))).trans (W_main_arg0 m (dats m) c),
      ((hr c).2 main_arg1 (Pipeline.mem_restRefs_of main_arg1 (by decide) (by decide))).trans (W_main_arg1 m (dats m) c),
      ((hr c).2 main_arg2 (Pipeline.mem_restRefs_of main_arg2 (by decide) (by decide))).trans (W_main_arg2 m (dats m) c),
      ((hr c).2 main_arg3 (Pipeline.mem_restRefs_of main_arg3 (by decide) (by decide))).trans (W_main_arg3 m (dats m) c)⟩)
    (run_main m ρ)

end Cert.Msg

end
-- ==== Proof.lean ====
/-
  The message-passing sum of bond features against its reference, over the extended reals.

  For a batch entry b, an edge e and a feature h both programs compute the sum, over the six neighbour words of (b, e),
  of the distance weight of the named edge times that edge's feature. The distance weight (the reciprocal of a squared
  distance, with an infinite reciprocal replaced by zero) is computed by the same host operations in both programs,
  so it is one term on both sides; what differs is how a neighbour word selects its edge:

  * the reference multiplies weights into features first and then gathers the six named rows and adds them;
  * the kernel, per block of 32 batch entries, builds for every edge e' a coefficient by six passes that each add the
    weight of e' when the pass's neighbour word equals e' (and zero otherwise), and contracts the coefficients against
    the features of all 128 edges in one matrix product.

  The two agree when every neighbour word names an edge, 0 ≤ word < 128 — outside that range the reference's gather
  wraps or clamps the word to an edge while the comparison against 0 … 127 selects none —, which the precondition
  states for the integer input beside the finiteness of the float inputs. Finiteness of the features is what lets the
  product distribute over the six-pass sum (Proof/Algebra.lean); the weights are real whatever the inputs are, since
  both infinities are replaced by zero (Proof/RefSide.lean).

  Modules: Proof/Spec.lean (the two arrangements as functions of the arguments), Proof/Algebra.lean (they agree),
  Proof/Pre.lean (the precondition read element by element), Proof/RefSide.lean (the reference's result is the
  gathered arrangement), Proof/KerBody.lean (one grid point's output block), Proof/KerArr.lean (the eight blocks make
  the region's output array), Proof/KerHost.lean and Proof/KerRun.lean (the host lines around the region; the
  kernel's run with its result named). The frames are the generated ones; the idealization rewrote nothing.
-/
import proofs.«415500_j89885075571226_3_alg».proof.Defs
import proofs.«415500_j89885075571226_3_alg».proof.Proof.Gen.Kernel
import proofs.«415500_j89885075571226_3_alg».proof.Proof.Gen.Kernel.Skeleton
import proofs.«415500_j89885075571226_3_alg».proof.Proof.Gen.Kernel.Launch
import proofs.«415500_j89885075571226_3_alg».proof.Proof.Gen.Kernel.Points
import proofs.«415500_j89885075571226_3_alg».proof.Proof.Gen.Kernel.Frame
import proofs.«415500_j89885075571226_3_alg».proof.Proof.Gen.KernelIdeal
import proofs.«415500_j89885075571226_3_alg».proof.Proof.Gen.KernelIdeal.Skeleton
import proofs.«415500_j89885075571226_3_alg».proof.Proof.Gen.KernelIdeal.Launch
import proofs.«415500_j89885075571226_3_alg».proof.Proof.Gen.KernelIdeal.Points
import proofs.«415500_j89885075571226_3_alg».proof.Proof.Gen.KernelIdeal.Frame
import proofs.«415500_j89885075571226_3_alg».proof.Proof.Gen.ReferenceIdeal
import proofs.«415500_j89885075571226_3_alg».proof.Proof.Gen.ReferenceIdeal.Run
import proofs.«415500_j89885075571226_3_alg».proof.Proof.Gen.ReferenceIdeal.Read
import proofs.«415500_j89885075571226_3_alg».proof.Proof.Gen.Pre_finite_inputs
import proofs.«415500_j89885075571226_3_alg».proof.Proof.Algebra
import proofs.«415500_j89885075571226_3_alg».proof.Proof.Pre
import proofs.«415500_j89885075571226_3_alg».proof.Proof.RefSide
import proofs.«415500_j89885075571226_3_alg».proof.Proof.KerRun
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_k : Cert.frame_Kernel := fun m ρ _ => Cert.Kernel.Gen.frame m ρ

/-- The idealized kernel runs and keeps its arguments: the generated frame. -/
theorem frame_ki : Cert.frame_KernelIdeal := fun m ρ _ => Cert.KernelIdeal.Gen.frame m ρ

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end at the gathered arrangement of the arguments: the kernel's at the coefficient arrangement, equal to it
    under the precondition (real features, neighbour words below 128; the weights are real in any case), the reference's
    at it directly. -/
theorem algebraic : Cert.algebraic_KernelIdeal_ReferenceIdeal := by
  intro m ρ m' ρ' hpre hagree
  have hdec : ∀ c : Dev Cert.KernelIdeal.nD,
      (∀ j, ∃ r : ℝ, (m ((c.tc : Thread Cert.KernelIdeal.nD Cert.KernelIdeal.τ).loc Cert.KernelIdeal.main_arg0)) j = ((r : ℝ) : EReal)) ∧ (∀ j, ((m ((c.tc : Thread Cert.KernelIdeal.nD Cert.KernelIdeal.τ).loc Cert.KernelIdeal.main_arg2)) j).toNat < 128) :=
    fun c => Cert.Msg.pre_decode _ _ _ _ (hpre c)
  refine ⟨fun c => Cert.Msg.refArr
      (Cert.ReferenceIdeal.Read.val_main_v18 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg3)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg2)), ?_, ?_⟩
  · refine (θ_run Cert.KernelIdeal.defs _ _).mono (fun r h c => ⟨(h c).1.trans ?_, (h c).2⟩) (Cert.Msg.kernel_run m ρ)
    exact Cert.Msg.kerArr_eq_refArr _ _ _ (fun j => Cert.Msg.weight_real _ _ j) (hdec c).1 (hdec c).2
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v31_eq, (hagree c).1, (hagree c).2.1, (hagree c).2.2.1, (hagree c).2.2.2]
    exact Cert.Msg.ref_eq _ _ _ _ (hdec c).2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
